-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel

variable [Facts]

def fn {F : FTy → Type} [FloatOps F] (main_arg0 : FVec F S65536x512 .f32) (main_arg1 : FVec F S65536x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  main_v8
-- ==== Kernel.lean ====
abbrev S65536x512 : Shape := ⟨2, ![65536, 512]⟩
abbrev S2x5x512 : Shape := ⟨3, ![2, 5, 512]⟩
abbrev S2048x512 : Shape := ⟨2, ![2048, 512]⟩
abbrev S1x5x512 : Shape := ⟨3, ![1, 5, 512]⟩
abbrev S5x512 : Shape := ⟨2, ![5, 512]⟩
abbrev S1x1x512 : Shape := ⟨3, ![1, 1, 512]⟩
abbrev S1x512 : Shape := ⟨2, ![1, 512]⟩
abbrev S512 : Shape := ⟨1, ![512]⟩
abbrev S_ : Shape := ⟨0, ![]⟩

abbrev nBuf : Space → Nat
  | .hbm => 65
  | .vmem => 6
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S2x5x512, .f32⟩
  | .hbm, ⟨3, _⟩ => ⟨S_, .f32⟩
  | .hbm, ⟨4, _⟩ => ⟨S5x512, .f32⟩
  | .hbm, ⟨5, _⟩ => ⟨S1x512, .f32⟩
  | .hbm, ⟨6, _⟩ => ⟨S512, .f32⟩
  | .hbm, ⟨7, _⟩ => ⟨S1x512, .f32⟩
  | .hbm, ⟨8, _⟩ => ⟨S512, .f32⟩
  | .hbm, ⟨9, _⟩ => ⟨S1x512, .f32⟩
  | .hbm, ⟨10, _⟩ => ⟨S512, .f32⟩
  | .hbm, ⟨11, _⟩ => ⟨S1x512, .f32⟩
  | .hbm, ⟨12, _⟩ => ⟨S512, .f32⟩
  | .hbm, ⟨13, _⟩ => ⟨S1x512, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S512, .f32⟩
  | .hbm, ⟨30, _⟩ => ⟨S512, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S512, .f32⟩
  | .hbm, ⟨35, _⟩ => ⟨S512, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S512, .f32⟩
  | .hbm, ⟨42, _⟩ => ⟨S512, .f32⟩
  | .hbm, ⟨43, _⟩ => ⟨S_, .f32⟩
  | .hbm, ⟨44, _⟩ => ⟨S512, .f32⟩
  | .hbm, ⟨45, _⟩ => ⟨S512, .f32⟩
  | .hbm, ⟨46, _⟩ => ⟨S512, .f32⟩
  | .hbm, ⟨47, _⟩ => ⟨S512, .f32⟩
  | .hbm, ⟨48, _⟩ => ⟨S_, .f32⟩
  | .hbm, ⟨49, _⟩ => ⟨S512, .f32⟩
  | .hbm, ⟨50, _⟩ => ⟨S512, .f32⟩
  | .hbm, ⟨51, _⟩ => ⟨S_, .f32⟩
  | .hbm, ⟨52, _⟩ => ⟨S512, .f32⟩
  | .hbm, ⟨53, _⟩ => ⟨S512, .f32⟩
  | .hbm, ⟨54, _⟩ => ⟨S_, .f32⟩
  | .hbm, ⟨55, _⟩ => ⟨S512, .f32⟩
  | .hbm, ⟨56, _⟩ => ⟨S512, .f32⟩
  | .hbm, ⟨57, _⟩ => ⟨S512, .f32⟩
  | .hbm, ⟨58, _⟩ => ⟨S512, .f32⟩
  | .hbm, ⟨59, _⟩ => ⟨S_, .f32⟩
  | .hbm, ⟨60, _⟩ => ⟨S512, .f32⟩
  | .hbm, ⟨61, _⟩ => ⟨S512, .f32⟩
  | .hbm, ⟨62, _⟩ => ⟨S512, .f32⟩
  | .hbm, ⟨63, _⟩ => ⟨S_, .f32⟩
  | .hbm, ⟨64, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S1x5x512, .f32⟩
  | .local _ .vmem, ⟨5, _⟩ => ⟨S1x5x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_cst_7 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_v37 : Ref sig .tc := ⟨.hbm, 50, rfl⟩
abbrev main_cst_10 : Ref sig .tc := ⟨.hbm, 51, rfl⟩
abbrev main_v38 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_12 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_13 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x5x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x5x512_S1x5x512_0_0_0 : ∀ a, (![0, 0, 0] : Fin 3 → Nat) a + S1x5x512.size a ≤ S1x5x512.size a
  h_S1x5x512 : 0 < S1x5x512.numel
  shapeCasts_S1x5x512_S5x512 : S1x5x512.ShapeCasts S5x512
  shapeCasts_S5x512_S1x5x512 : S5x512.ShapeCasts S1x5x512
  inb_S2048x512_S2048x512_0_0 : ∀ a, (![0, 0] : Fin 2 → Nat) a + S2048x512.size a ≤ S2048x512.size a
  h_S2048x512 : 0 < S2048x512.numel
  inb_S1x5x512_S1x1x512_0_0_0 : ∀ a, (![0, 0, 0] : Fin 3 → Nat) a + S1x1x512.size a ≤ S1x5x512.size a
  h_S1x1x512 : 0 < S1x1x512.numel
  shapeCasts_S1x1x512_S1x512 : S1x1x512.ShapeCasts S1x512
  reduces_S2048x512_S512 : S2048x512.Reduces [0] S512
  shapeCasts_S512_S1x512 : S512.ShapeCasts S1x512
  shapeCasts_S1x512_S1x1x512 : S1x512.ShapeCasts S1x1x512
  inb_S1x5x512_S1x1x512_0_1_0 : ∀ a, (![0, 1, 0] : Fin 3 → Nat) a + S1x1x512.size a ≤ S1x5x512.size a
  inb_S1x5x512_S1x1x512_0_2_0 : ∀ a, (![0, 2, 0] : Fin 3 → Nat) a + S1x1x512.size a ≤ S1x5x512.size a
  inb_S1x5x512_S1x1x512_0_3_0 : ∀ a, (![0, 3, 0] : Fin 3 → Nat) a + S1x1x512.size a ≤ S1x5x512.size a
  inb_S1x5x512_S1x1x512_0_4_0 : ∀ a, (![0, 4, 0] : Fin 3 → Nat) a + S1x1x512.size a ≤ S1x5x512.size a
  reducesTo_S2x5x512_S5x512_d0 : S2x5x512.ReducesTo [0] S5x512
  h_S_ : 0 < S_.numel
  slices_S5x512_S1x512_0_0 : S5x512.Slices ![0, 0] S1x512
  shapeCasts_S1x512_S512 : S1x512.ShapeCasts S512
  slices_S5x512_S1x512_1_0 : S5x512.Slices ![1, 0] S1x512
  slices_S5x512_S1x512_2_0 : S5x512.Slices ![2, 0] S1x512
  slices_S5x512_S1x512_3_0 : S5x512.Slices ![3, 0] S1x512
  slices_S5x512_S1x512_4_0 : S5x512.Slices ![4, 0] S1x512
  bcast_S_S512 : S_.BroadcastsInDim S512 (![] : Fin 0 → Fin S512.rank)
  reducesTo_S512_S_d0 : S512.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S65536x512.size a
  hwx0_1 : ∀ i : grid0.Coords, EltTy.bits .f32 = 32 ∨ (Rect.block (s := S65536x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5x512.size a ≤ S2x5x512.size a
  hwx0_2 : ∀ i : grid0.Coords, EltTy.bits .f32 = 32 ∨ (Rect.block (s := S2x5x512) S1x5x512.size (cc0_transform_2 i) (hinb0_2 i)).WholeWords (EltTy.packing .f32)

variable [Facts₀]

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x5x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x512 : Shape := ⟨2, ![65536, 512]⟩
abbrev S_ : Shape := ⟨0, ![]⟩
abbrev S512 : Shape := ⟨1, ![512]⟩
abbrev S1x512 : Shape := ⟨2, ![1, 512]⟩

abbrev nBuf : Space → Nat
  | .hbm => 90
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S_, .f32⟩
  | .hbm, ⟨3, _⟩ => ⟨S512, .f32⟩
  | .hbm, ⟨4, _⟩ => ⟨S_, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S65536x512, .f32⟩
  | .hbm, ⟨9, _⟩ => ⟨S65536x512, .f32⟩
  | .hbm, ⟨10, _⟩ => ⟨S_, .i32⟩
  | .hbm, ⟨11, _⟩ => ⟨S_, .f32⟩
  | .hbm, ⟨12, _⟩ => ⟨S512, .f32⟩
  | .hbm, ⟨13, _⟩ => ⟨S1x512, .f32⟩
  | .hbm, ⟨14, _⟩ => ⟨S_, .f32⟩
  | .hbm, ⟨15, _⟩ => ⟨S1x512, .f32⟩
  | .hbm, ⟨16, _⟩ => ⟨S1x512, .f32⟩
  | .hbm, ⟨17, _⟩ => ⟨S65536x512, .f32⟩
  | .hbm, ⟨18, _⟩ => ⟨S65536x512, .f32⟩
  | .hbm, ⟨19, _⟩ => ⟨S65536x512, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S512, .f32⟩
  | .hbm, ⟨32, _⟩ => ⟨S512, .f32⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S1x512, .f32⟩
  | .hbm, ⟨38, _⟩ => ⟨S65536x512, .f32⟩
  | .hbm, ⟨39, _⟩ => ⟨S65536x512, .f32⟩
  | .hbm, ⟨40, _⟩ => ⟨S_, .f32⟩
  | .hbm, ⟨41, _⟩ => ⟨S512, .f32⟩
  | .hbm, ⟨42, _⟩ => ⟨S_, .f32⟩
  | .hbm, ⟨43, _⟩ => ⟨S512, .f32⟩
  | .hbm, ⟨44, _⟩ => ⟨S512, .f32⟩
  | .hbm, ⟨45, _⟩ => ⟨S1x512, .f32⟩
  | .hbm, ⟨46, _⟩ => ⟨S65536x512, .f32⟩
  | .hbm, ⟨47, _⟩ => ⟨S65536x512, .f32⟩
  | .hbm, ⟨48, _⟩ => ⟨S_, .i32⟩
  | .hbm, ⟨49, _⟩ => ⟨S_, .f32⟩
  | .hbm, ⟨50, _⟩ => ⟨S512, .f32⟩
  | .hbm, ⟨51, _⟩ => ⟨S1x512, .f32⟩
  | .hbm, ⟨52, _⟩ => ⟨S_, .f32⟩
  | .hbm, ⟨53, _⟩ => ⟨S1x512, .f32⟩
  | .hbm, ⟨54, _⟩ => ⟨S1x512, .f32⟩
  | .hbm, ⟨55, _⟩ => ⟨S65536x512, .f32⟩
  | .hbm, ⟨56, _⟩ => ⟨S65536x512, .f32⟩
  | .hbm, ⟨57, _⟩ => ⟨S65536x512, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S512, .f32⟩
  | .hbm, ⟨63, _⟩ => ⟨S512, .f32⟩
  | .hbm, ⟨64, _⟩ => ⟨S512, .f32⟩
  | .hbm, ⟨65, _⟩ => ⟨S_, .f32⟩
  | .hbm, ⟨66, _⟩ => ⟨S_, .i1⟩
  | .hbm, ⟨67, _⟩ => ⟨S_, .f32⟩
  | .hbm, ⟨68, _⟩ => ⟨S_, .f32⟩
  | .hbm, ⟨69, _⟩ => ⟨S512, .f32⟩
  | .hbm, ⟨70, _⟩ => ⟨S512, .f32⟩
  | .hbm, ⟨71, _⟩ => ⟨S512, .f32⟩
  | .hbm, ⟨72, _⟩ => ⟨S_, .f32⟩
  | .hbm, ⟨73, _⟩ => ⟨S512, .f32⟩
  | .hbm, ⟨74, _⟩ => ⟨S512, .f32⟩
  | .hbm, ⟨75, _⟩ => ⟨S1x512, .f32⟩
  | .hbm, ⟨76, _⟩ => ⟨S65536x512, .f32⟩
  | .hbm, ⟨77, _⟩ => ⟨S65536x512, .f32⟩
  | .hbm, ⟨78, _⟩ => ⟨S65536x512, .f32⟩
  | .hbm, ⟨79, _⟩ => ⟨S_, .f32⟩
  | .hbm, ⟨80, _⟩ => ⟨S512, .f32⟩
  | .hbm, ⟨81, _⟩ => ⟨S_, .f32⟩
  | .hbm, ⟨82, _⟩ => ⟨S512, .f32⟩
  | .hbm, ⟨83, _⟩ => ⟨S512, .f32⟩
  | .hbm, ⟨84, _⟩ => ⟨S_, .f32⟩
  | .hbm, ⟨85, _⟩ => ⟨S512, .f32⟩
  | .hbm, ⟨86, _⟩ => ⟨S512, .f32⟩
  | .hbm, ⟨87, _⟩ => ⟨S512, .f32⟩
  | .hbm, ⟨88, _⟩ => ⟨S_, .f32⟩
  | .hbm, ⟨89, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_cst_0 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_cst_1 : Ref sig .tc := ⟨.hbm, 21, rfl⟩
abbrev main_call0_call0_v8 : Ref sig .tc := ⟨.hbm, 22, rfl⟩
abbrev main_call0_call0_cst_2 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_call0_cst_3 : Ref sig .tc := ⟨.hbm, 27, rfl⟩
abbrev main_call0_call0_v12 : Ref sig .tc := ⟨.hbm, 28, rfl⟩
abbrev main_call0_call0_cst_4 : Ref sig .tc := ⟨.hbm, 29, rfl⟩
abbrev main_call0_call0_call0_v0 : Ref sig .tc := ⟨.hbm, 30, rfl⟩
abbrev main_call0_call0_call0_v1 : Ref sig .tc := ⟨.hbm, 31, rfl⟩
abbrev main_call0_v0 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_2 : Ref sig .tc := ⟨.hbm, 40, rfl⟩
abbrev main_v12 : Ref sig .tc := ⟨.hbm, 41, rfl⟩
abbrev main_cst_3 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_4 : Ref sig .tc := ⟨.hbm, 48, rfl⟩
abbrev main_call1_call0_cst : Ref sig .tc := ⟨.hbm, 49, rfl⟩
abbrev main_call1_call0_v0 : Ref sig .tc := ⟨.hbm, 50, rfl⟩
abbrev main_call1_call0_v1 : Ref sig .tc := ⟨.hbm, 51, rfl⟩
abbrev main_call1_call0_cst_0 : Ref sig .tc := ⟨.hbm, 52, rfl⟩
abbrev main_call1_call0_v2 : Ref sig .tc := ⟨.hbm, 53, rfl⟩
abbrev main_call1_call0_v3 : Ref sig .tc := ⟨.hbm, 54, rfl⟩
abbrev main_call1_call0_v4 : Ref sig .tc := ⟨.hbm, 55, rfl⟩
abbrev main_call1_call0_v5 : Ref sig .tc := ⟨.hbm, 56, rfl⟩
abbrev main_call1_call0_v6 : Ref sig .tc := ⟨.hbm, 57, rfl⟩
abbrev main_call1_call0_v7 : Ref sig .tc := ⟨.hbm, 58, rfl⟩
abbrev main_call1_call0_cst_1 : Ref sig .tc := ⟨.hbm, 59, rfl⟩
abbrev main_call1_call0_v8 : Ref sig .tc := ⟨.hbm, 60, rfl⟩
abbrev main_call1_call0_cst_2 : Ref sig .tc := ⟨.hbm, 61, rfl⟩
abbrev main_call1_call0_v9 : Ref sig .tc := ⟨.hbm, 62, rfl⟩
abbrev main_call1_call0_v10 : Ref sig .tc := ⟨.hbm, 63, rfl⟩
abbrev main_call1_call0_v11 : Ref sig .tc := ⟨.hbm, 64, rfl⟩
abbrev main_call1_call0_cst_3 : Ref sig .tc := ⟨.hbm, 65, rfl⟩
abbrev main_call1_call0_v12 : Ref sig .tc := ⟨.hbm, 66, rfl⟩
abbrev main_call1_call0_cst_4 : Ref sig .tc := ⟨.hbm, 67, rfl⟩
abbrev main_call1_call0_call0_v0 : Ref sig .tc := ⟨.hbm, 68, rfl⟩
abbrev main_call1_call0_call0_v1 : Ref sig .tc := ⟨.hbm, 69, rfl⟩
abbrev main_call1_v0 : Ref sig .tc := ⟨.hbm, 70, rfl⟩
abbrev main_v18 : Ref sig .tc := ⟨.hbm, 71, rfl⟩
abbrev main_cst_5 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_cst_6 : Ref sig .tc := ⟨.hbm, 79, rfl⟩
abbrev main_v25 : Ref sig .tc := ⟨.hbm, 80, rfl⟩
abbrev main_cst_7 : Ref sig .tc := ⟨.hbm, 81, rfl⟩
abbrev main_v26 : Ref sig .tc := ⟨.hbm, 82, rfl⟩
abbrev main_v27 : Ref sig .tc := ⟨.hbm, 83, rfl⟩
abbrev main_cst_8 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_cst_9 : Ref sig .tc := ⟨.hbm, 88, rfl⟩
abbrev main_v31 : Ref sig .tc := ⟨.hbm, 89, rfl⟩

abbrev nD : Nat := 1
abbrev τ : Topo := Topo.v7x

variable {F : FTy → Type} [FloatOps F]

class Facts₀ : Prop where
  reducesTo_S65536x512_S512_d0 : S65536x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S1x512 : S_.BroadcastsInDim S1x512 (![] : Fin 0 → Fin S1x512.rank)
  reducesTo_S512_S_d0 : S512.ReducesTo [0] S_

variable [Facts₀]

class Facts : Prop extends Facts₀ where

variable [Facts]
-- ==== Proof.Spec.lean ====
/-
  The mathematics both programs compute, over the extended reals, with plain row and column indices.

  Inputs are two 65536 × 512 tables `E`, `T`. Five column statistics are summed over the rows: `E`, `E·E`, `T`,
  `T·T`, `E·T`. The kernel sums them tile by tile (32 tiles of 2048 rows; each of two cores sums sixteen consecutive
  tiles, and the two cores' sums are added), and finishes with
      mean = S/B,   var = (S₂ − B·mean·mean)/(B − 1),   cov = (S_et − B·mean_e·mean_t)/B,
      diag = cov / ((√var_e + ε)(√var_t + ε)),   loss = Σ_j (1 − diag_j)².
  The reference centres each column by its mean, divides by (√(Σ(x − mean)²/(B − 1)) + ε), multiplies the two
  normalised tables, sums the rows, divides by B, and takes the same loss. The constants are kept as the float words
  both programs spell; the comparison `B − 1 > 0` that guards the reference's variance is kept as it is printed.
-/
import Idealize.ShloMosaic.PureOps.Ideal
import Idealize.ShloMosaic.Lib.ValueIdx

noncomputable section

namespace Cert.Spec

open Idealize.ShloMosaic

/-- A 65536 × 512 table of extended reals, by row and column. -/
abbrev Mat := Fin 65536 → Fin 512 → EReal

/-- A two-axis array read as a table. -/
def mat (x : (⟨2, ![65536, 512]⟩ : Shape).Idx → EReal) : Mat := fun b j => x (ValueIdx.ix2 b j)

/-- The batch size 65536, the unit, the stabiliser ε, zero and the not-a-number word, as the programs spell them. -/
def cB : EReal := Ideal.ofBits .f32 0x47800000#32
def cOne : EReal := Ideal.ofBits .f32 0x3F800000#32
def cEps : EReal := Ideal.ofBits .f32 0x3089705F#32
def cZero : EReal := Ideal.ofBits .f32 0x00000000#32
def cNaN : EReal := Ideal.ofBits .f32 0x7FC00000#32
/-- The integer one the reference's variance takes off the count, converted to a float. -/
def cDdof : EReal := (((1#32 : BitVec 32).toInt : ℝ) : EReal)

/-- Row number `n` of a table (numbers past the last row wrap; no caller passes one). -/
def row (n : ℕ) : Fin 65536 := ⟨n % 65536, Nat.mod_lt _ (by decide)⟩

/-- The five statistics' summands at one entry: `a`, `a·a`, `b`, `b·b`, `a·b`. -/
def stat (k : Fin 5) (a b : EReal) : EReal :=
  if k.val = 0 then a else if k.val = 1 then a * a else if k.val = 2 then b else if k.val = 3 then b * b else a * b

/-- Statistic `k` summed over the 2048 rows of tile `n`, at column `j`. -/
def tileSum (E T : Mat) (n : ℕ) (k : Fin 5) (j : Fin 512) : EReal :=
  ∑ r : Fin 2048, stat k (E (row (n * 2048 + r.val)) j) (T (row (n * 2048 + r.val)) j)

/-- What core `p` accumulates: its sixteen consecutive tiles. -/
def coreSum (E T : Mat) (p : ℕ) (k : Fin 5) (j : Fin 512) : EReal :=
  ∑ jj ∈ Finset.range 16, tileSum E T (p * 16 + jj) k j

/-- The kernel's column sums: zero plus the two cores' sums. -/
def kSum (E T : Mat) (k : Fin 5) (j : Fin 512) : EReal := cZero + ∑ p : Fin 2, coreSum E T p.val k j

/-- The kernel's normalised diagonal entry at column `j`, from its five sums. -/
def kDiag (E T : Mat) (j : Fin 512) : EReal :=
  Ideal.div
    (Ideal.div (kSum E T 4 j - cB * Ideal.div (kSum E T 0 j) cB * Ideal.div (kSum E T 2 j) cB) cB)
    ((Ideal.sqrt (Ideal.div (kSum E T 1 j - cB * Ideal.div (kSum E T 0 j) cB * Ideal.div (kSum E T 0 j) cB) (cB - cOne)) + cEps)
      * (Ideal.sqrt (Ideal.div (kSum E T 3 j - cB * Ideal.div (kSum E T 2 j) cB * Ideal.div (kSum E T 2 j) cB) (cB - cOne)) + cEps))

/-- The kernel's loss. -/
def kLoss (E T : Mat) : EReal := cZero + ∑ j : Fin 512, (cOne - kDiag E T j) * (cOne - kDiag E T j)

/-- The reference's column mean. -/
def rMean (X : Mat) (j : Fin 512) : EReal := Ideal.div (cZero + ∑ b : Fin 65536, X b j) cB

/-- The reference's unbiased column variance, guarded as printed by `B − 1 > 0`. -/
def rVar (X : Mat) (j : Fin 512) : EReal :=
  Scalar.select (Ideal.cmp .ogt (cB - cDdof) cZero)
    (Ideal.div (cZero + ∑ b : Fin 65536, (X b j - rMean X j) * (X b j - rMean X j)) (cB - cDdof)) cNaN

/-- A centred entry over the stabilised standard deviation. -/
def rNorm (X : Mat) (b : Fin 65536) (j : Fin 512) : EReal :=
  Ideal.div (X b j - rMean X j) (Ideal.sqrt (rVar X j) + cEps)

/-- The reference's diagonal entry at column `j`. -/
def rDiag (E T : Mat) (j : Fin 512) : EReal := Ideal.div (cZero + ∑ b : Fin 65536, rNorm E b j * rNorm T b j) cB

/-- The reference's loss. -/
def rLoss (E T : Mat) : EReal := cZero + ∑ j : Fin 512, (cOne - rDiag E T j) * (cOne - rDiag E T j)

end Cert.Spec

end
-- ==== Proof.KTailTerm.lean ====
/-
  What the host operations after the kernel region compute from the region's result array `v0` (two cores' partial
  sums of the five column statistics): the two cores' sums added, the five rows taken apart, then per column
      mean = S/B,  var = (S₂ − B·mean·mean)/(B − 1),  cov = (S_et − B·mean_e·mean_t)/B,
      diag = cov / ((√var_e + ε)(√var_t + ε)),  and the loss Σ (1 − diag)²,
  composed in the order and spelling the program prints them.
-/
import proofs.«144512_j30288109372144_1_alg».proof.KernelIdeal
import proofs.«144512_j30288109372144_1_alg».proof.Proof.Gen.KernelIdeal
import proofs.«144512_j30288109372144_1_alg».proof.Proof.Spec

noncomputable section

namespace Cert.KernelIdeal.Hand

open Idealize.ShloMosaic Cert.KernelIdeal Cert.KernelIdeal.Gen

variable {F : FTy → Type} [FloatOps F]

/-- The loss from the region's result array. -/
def tailTerm (v0 : FVec F S2x5x512 .f32) : FVec F S_ .f32 :=
  let cst : FVec F S_ .f32 := constant S_ .f32 0x00000000#32
  let v1 : FVec F S5x512 .f32 := Host.reduceAdd v0 cst reducesTo_S2x5x512_S5x512_d0 h_S_
  let v2 : FVec F S1x512 .f32 := extractStridedSlice S1x512 ![0, 0] v1 slices_S5x512_S1x512_0_0
  let v3 : FVec F S512 .f32 := shapeCast S512 v2 shapeCasts_S1x512_S512
  let v4 : FVec F S1x512 .f32 := extractStridedSlice S1x512 ![1, 0] v1 slices_S5x512_S1x512_1_0
  let v5 : FVec F S512 .f32 := shapeCast S512 v4 shapeCasts_S1x512_S512
  let v6 : FVec F S1x512 .f32 := extractStridedSlice S1x512 ![2, 0] v1 slices_S5x512_S1x512_2_0
  let v7 : FVec F S512 .f32 := shapeCast S512 v6 shapeCasts_S1x512_S512
  let v8 : FVec F S1x512 .f32 := extractStridedSlice S1x512 ![3, 0] v1 slices_S5x512_S1x512_3_0
  let v9 : FVec F S512 .f32 := shapeCast S512 v8 shapeCasts_S1x512_S512
  let v10 : FVec F S1x512 .f32 := extractStridedSlice S1x512 ![4, 0] v1 slices_S5x512_S1x512_4_0
  let v11 : FVec F S512 .f32 := shapeCast S512 v10 shapeCasts_S1x512_S512
  let cst_0 : FVec F S_ .f32 := constant S_ .f32 0x47800000#32
  let v12 : FVec F S512 .f32 := broadcastInDim S512 ![] bcast_S_S512 cst_0
  let v13 : FVec F S512 .f32 := Host.divf v3 v12
  let cst_1 : FVec F S_ .f32 := constant S_ .f32 0x47800000#32
  let v14 : FVec F S512 .f32 := broadcastInDim S512 ![] bcast_S_S512 cst_1
  let v15 : FVec F S512 .f32 := Host.divf v7 v14
  let cst_2 : FVec F S_ .f32 := constant S_ .f32 0x47800000#32
  let v16 : FVec F S512 .f32 := broadcastInDim S512 ![] bcast_S_S512 cst_2
  let v17 : FVec F S512 .f32 := mulf v16 v13
  let v18 : FVec F S512 .f32 := mulf v17 v13
  let v19 : FVec F S512 .f32 := subf v5 v18
  let cst_3 : FVec F S_ .f32 := constant S_ .f32 0x47800000#32
  let cst_4 : FVec F S_ .f32 := constant S_ .f32 0x3F800000#32
  let v20 : FVec F S_ .f32 := subf cst_3 cst_4
  let v21 : FVec F S512 .f32 := broadcastInDim S512 ![] bcast_S_S512 v20
  let v22 : FVec F S512 .f32 := Host.divf v19 v21
  let cst_5 : FVec F S_ .f32 := constant S_ .f32 0x47800000#32
  let v23 : FVec F S512 .f32 := broadcastInDim S512 ![] bcast_S_S512 cst_5
  let v24 : FVec F S512 .f32 := mulf v23 v15
  let v25 : FVec F S512 .f32 := mulf v24 v15
  let v26 : FVec F S512 .f32 := subf v9 v25
  let cst_6 : FVec F S_ .f32 := constant S_ .f32 0x47800000#32
  let cst_7 : FVec F S_ .f32 := constant S_ .f32 0x3F800000#32
  let v27 : FVec F S_ .f32 := subf cst_6 cst_7
  let v28 : FVec F S512 .f32 := broadcastInDim S512 ![] bcast_S_S512 v27
  let v29 : FVec F S512 .f32 := Host.divf v26 v28
  let v30 : FVec F S512 .f32 := Host.sqrt v22
  let v31 : FVec F S512 .f32 := Host.sqrt v29
  let cst_8 : FVec F S_ .f32 := constant S_ .f32 0x47800000#32
  let v32 : FVec F S512 .f32 := broadcastInDim S512 ![] bcast_S_S512 cst_8
  let v33 : FVec F S512 .f32 := mulf v32 v13
  let v34 : FVec F S512 .f32 := mulf v33 v15
  let v35 : FVec F S512 .f32 := subf v11 v34
  let cst_9 : FVec F S_ .f32 := constant S_ .f32 0x47800000#32
  let v36 : FVec F S512 .f32 := broadcastInDim S512 ![] bcast_S_S512 cst_9
  let v37 : FVec F S512 .f32 := Host.divf v35 v36
  let cst_10 : FVec F S_ .f32 := constant S_ .f32 0x3089705F#32
  let v38 : FVec F S512 .f32 := broadcastInDim S512 ![] bcast_S_S512 cst_10
  let v39 : FVec F S512 .f32 := addf v30 v38
  let cst_11 : FVec F S_ .f32 := constant S_ .f32 0x3089705F#32
  let v40 : FVec F S512 .f32 := broadcastInDim S512 ![] bcast_S_S512 cst_11
  let v41 : FVec F S512 .f32 := addf v31 v40
  let v42 : FVec F S512 .f32 := mulf v39 v41
  let v43 : FVec F S512 .f32 := Host.divf v37 v42
  let cst_12 : FVec F S_ .f32 := constant S_ .f32 0x3F800000#32
  let v44 : FVec F S512 .f32 := broadcastInDim S512 ![] bcast_S_S512 cst_12
  let v45 : FVec F S512 .f32 := subf v44 v43
  let v46 : FVec F S512 .f32 := mulf v45 v45
  let cst_13 : FVec F S_ .f32 := constant S_ .f32 0x00000000#32
  Host.reduceAdd v46 cst_13 reducesTo_S512_S_d0 h_S_

/-- The region's result array at the ideal instance, as a function of the two argument arrays: entry (p, k, j) is
    core `p`'s sum of statistic `k` at column `j` over its sixteen tiles. -/
def partialsArr (e t : FVec Ideal S65536x512 .f32) : FVec Ideal S2x5x512 .f32 :=
  fun i => Cert.Spec.coreSum (Cert.Spec.mat e) (Cert.Spec.mat t) (i 0).val (i 1) (i 2)

end Cert.KernelIdeal.Hand

end
-- ==== Proof.KBlocks.lean ====
/-
  The kernel region's result array, read off the frame run at the ideal instance.

  The grid has 32 points; point t reads rows 2048·t … 2048·t + 2047 of both arguments (a tile), and the output block
  [1, 5, 512] belongs to core t / 16: it is zeroed at a core's first tile, accumulated over its sixteen tiles, and written
  back after the last. Each of the body's five row stores leaves, at column j, what the row held plus the tile's column sum
  of one statistic — e, e·e, t, t·t, e·t — of the two input blocks (`pay…_apply`: the column reduction is a sum over the
  2048 rows; the unit-axis casts move nothing). Reading the stores back row by row gives the two cases' values
  (`outA_apply` from zero, `outB_apply` over the previous contents), an induction on the point gives the running sum
  (`outsAt_apply`), and the write-backs cover the array, so it ends at the two cores' sums (`final_v0`).
-/
import proofs.«144512_j30288109372144_1_alg».proof.Proof.Gen.KernelIdeal.Frame
import proofs.«144512_j30288109372144_1_alg».proof.Proof.KTailTerm
import Idealize.ShloMosaic.Lib.Pipeline.Value
import Idealize.ShloMosaic.Lib.Tactic
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

section Rows
variable {Val : EltTy → Type} [∀ e, Nonempty (Val e)]

/-- Row `k` of the [1,5,512] block as a rectangle: entry (0, 0, j) of the row is entry (0, k, j) of the block. -/
theorem row_emb (k : Fin 5) (inb : ∀ a, (![0, k.val, 0] : Fin 3 → Nat) a + S1x1x512.size a ≤ S1x5x512.size a) (j : Fin 512) :
    (Rect.unit (s := S1x5x512) ![0, k.val, 0] S1x1x512.size inb).emb (ix3 (0 : Fin 1) (0 : Fin 1) j) = ix3 (0 : Fin 1) k j := by
  funext a
  apply Fin.ext
  match a with
  | ⟨0, _⟩ => rfl
  | ⟨1, _⟩ => show k.val + 1 * 0 = k.val; omega
  | ⟨2, _⟩ => show 0 + 1 * j.val = j.val; omega

/-- Entry (0, k, j) of the block is outside row `k'` when `k ≠ k'`. -/
theorem row_not_mem (k k' : Fin 5) (hk : k ≠ k') (inb : ∀ a, (![0, k'.val, 0] : Fin 3 → Nat) a + S1x1x512.size a ≤ S1x5x512.size a) (j : Fin 512) :
    ix3 (0 : Fin 1) k j ∉ (Rect.unit (s := S1x5x512) ![0, k'.val, 0] S1x1x512.size inb).set := by
  rw [Rect.mem_set_unit]
  intro h
  have h1 := h (1 : Fin 3)
  have : k.val ≠ k'.val := fun e => hk (Fin.ext e)
  change k'.val ≤ k.val ∧ k.val < k'.val + 1 at h1
  omega
end Rows

/-! ## The five payloads at an entry

Each store's payload is, at column `j`, the row of the block it read plus the column sum over the tile's 2048 rows of
one statistic of the two input blocks. -/

/-- The lifted index of the column reduction: row `r`, column `j`. -/
theorem lift_ix (j : Fin 512) (r : Fin 2048) :
    reduces_S2048x512_S512.lift (ix1 j) r = (ix2 r j : S2048x512.Idx) := by
  funext a
  match a with
  | ⟨0, _⟩ => rfl
  | ⟨1, _⟩ => rfl

/-- A tile's column sum of a [2048, 512] vector, cast to [1, 512], at column `j`. -/
theorem colsum_apply (v : FVec Ideal S2048x512 .f32) (u : Fin 1) (j : Fin 512) :
    shapeCast S1x512 (multiReduction .add [0] S512 v 0x00000000#32 reduces_S2048x512_S512 (.inl rfl) rfl) shapeCasts_S512_S1x512 (ix2 u j)
      = ∑ r : Fin 2048, v (ix2 r j) := by
  rw [shapeCast_a_1a_apply]
  refine (Ideal.multiReduction_add_single v 0x00000000#32 reduces_S2048x512_S512 (.inl rfl) rfl (ix1 j)).trans ?_
  exact Finset.sum_congr rfl fun r _ => congrArg v (lift_ix j r)

theorem pay5_apply (v3 : Vec Ideal S2048x512 .f32) (v5 : Vec Ideal S1x1x512 .f32) (j : Fin 512) :
    k0_pay5 (F := Ideal) v3 v5 (ix3 (0 : Fin 1) (0 : Fin 1) j) = v5 (ix3 (0 : Fin 1) (0 : Fin 1) j) + ∑ r : Fin 2048, v3 (ix2 r j) := by
  unfold k0_pay5
  dsimp only
  rw [shapeCast_ab_1ab_apply, addf_apply, shapeCast_1ab_ab_apply, colsum_apply]

theorem pay6_apply (v3 : Vec Ideal S2048x512 .f32) (v13 : Vec Ideal S1x1x512 .f32) (j : Fin 512) :
    k0_pay6 (F := Ideal) v3 v13 (ix3 (0 : Fin 1) (0 : Fin 1) j)
      = v13 (ix3 (0 : Fin 1) (0 : Fin 1) j) + ∑ r : Fin 2048, v3 (ix2 r j) * v3 (ix2 r j) := by
  unfold k0_pay6
  dsimp only
  rw [shapeCast_ab_1ab_apply, addf_apply, shapeCast_1ab_ab_apply, colsum_apply]
  rfl

theorem pay17_apply (v4 : Vec Ideal S2048x512 .f32) (v22 : Vec Ideal S1x1x512 .f32) (j : Fin 512) :
    k0_pay1 (F := Ideal) (k0_pay7 v4 v22) (ix3 (0 : Fin 1) (0 : Fin 1) j) = v22 (ix3 (0 : Fin 1) (0 : Fin 1) j) + ∑ r : Fin 2048, v4 (ix2 r j) := by
  unfold k0_pay1 k0_pay7
  dsimp only
  rw [shapeCast_ab_1ab_apply, addf_apply, shapeCast_1ab_ab_apply, colsum_apply]

theorem pay2_apply (v4 : Vec Ideal S2048x512 .f32) (v30 : Vec Ideal S1x1x512 .f32) (j : Fin 512) :
    k0_pay2 (F := Ideal) v4 v30 (ix3 (0 : Fin 1) (0 : Fin 1) j)
      = v30 (ix3 (0 : Fin 1) (0 : Fin 1) j) + ∑ r : Fin 2048, v4 (ix2 r j) * v4 (ix2 r j) := by
  unfold k0_pay2
  dsimp only
  rw [shapeCast_ab_1ab_apply, addf_apply, shapeCast_1ab_ab_apply, colsum_apply]
  rfl

theorem pay3_apply (v3 v4 : Vec Ideal S2048x512 .f32) (v39 : Vec Ideal S1x1x512 .f32) (j : Fin 512) :
    k0_pay3 (F := Ideal) v3 v4 v39 (ix3 (0 : Fin 1) (0 : Fin 1) j)
      = v39 (ix3 (0 : Fin 1) (0 : Fin 1) j) + ∑ r : Fin 2048, v3 (ix2 r j) * v4 (ix2 r j) := by
  unfold k0_pay3
  dsimp only
  rw [shapeCast_ab_1ab_apply, addf_apply, shapeCast_1ab_ab_apply, colsum_apply]
  rfl

section Peel
variable {Val : EltTy → Type} [∀ e, Nonempty (Val e)] {e : EltTy}

/-- A last store into row `k` leaves its payload there; -/
theorem canon_cons_row (k : Fin 5) (inb : ∀ a, (![0, k.val, 0] : Fin 3 → Nat) a + S1x1x512.size a ≤ S1x5x512.size a)
    (w : S1x1x512.Idx → Val e) (L : List (View.Piece Val S1x5x512 e)) (j : Fin 512) :
    View.canon ((⟨Rect.unit (s := S1x5x512) ![0, k.val, 0] S1x1x512.size inb, w⟩ : View.Piece Val S1x5x512 e) :: L) (ix3 (0 : Fin 1) k j)
      = w (ix3 (0 : Fin 1) (0 : Fin 1) j) := by
  rw [← row_emb k inb j]
  exact View.canon_cons_emb (Rect.unit (s := S1x5x512) ![0, k.val, 0] S1x1x512.size inb) w L _

/-- a last store into another row leaves row `k` to the earlier stores. -/
theorem canon_cons_skip (k k' : Fin 5) (hk : k ≠ k') (inb : ∀ a, (![0, k'.val, 0] : Fin 3 → Nat) a + S1x1x512.size a ≤ S1x5x512.size a)
    (w : S1x1x512.Idx → Val e) (L : List (View.Piece Val S1x5x512 e)) (j : Fin 512) :
    View.canon ((⟨Rect.unit (s := S1x5x512) ![0, k'.val, 0] S1x1x512.size inb, w⟩ : View.Piece Val S1x5x512 e) :: L) (ix3 (0 : Fin 1) k j)
      = View.canon L (ix3 (0 : Fin 1) k j) :=
  View.canon_cons_of_not_mem _ L (row_not_mem k k' hk inb j)

end Peel

theorem hz2 : (![0, 0] : Fin 2 → Nat) = fun _ => 0 := funext fun a => by fin_cases a <;> rfl
theorem hz3 : (![0, 0, 0] : Fin 3 → Nat) = fun _ => 0 := funext fun a => by fin_cases a <;> rfl

/-- A row of a [1,5,512] block read through its rectangle, at column `j`. -/
theorem ld_row (xo : Vec Ideal S1x5x512 .f32) (k : Fin 5)
    (inb : ∀ a, (![0, k.val, 0] : Fin 3 → Nat) a + S1x1x512.size a ≤ S1x5x512.size a) (j : Fin 512) :
    View.ld xo (Rect.unit (s := S1x5x512) ![0, k.val, 0] S1x1x512.size inb) (ix3 (0 : Fin 1) (0 : Fin 1) j) = xo (ix3 (0 : Fin 1) k j) :=
  congrArg xo (row_emb k inb j)

theorem stat_0 (a b : EReal) : Cert.Spec.stat 0 a b = a := rfl
theorem stat_1 (a b : EReal) : Cert.Spec.stat 1 a b = a * a := rfl
theorem stat_2 (a b : EReal) : Cert.Spec.stat 2 a b = b := rfl
theorem stat_3 (a b : EReal) : Cert.Spec.stat 3 a b = b * b := rfl
theorem stat_4 (a b : EReal) : Cert.Spec.stat 4 a b = a * b := rfl

/-- THE ACCUMULATING CASE. On a block holding `xo` the body leaves, at (0, k, j), `xo` there plus the tile's column sum of
    statistic `k` of the two input blocks. -/
theorem outB_apply (c : Dev nD) (i : grid0.Coords) (a2 : Memref sig .tc .vmem S2048x512 .f32) (h2 : a2.IsWhole)
    (a3 : Memref sig .tc .vmem S2048x512 .f32) (h3 : a3.IsWhole) (a4 : Memref sig .tc .vmem S1x5x512 .f32) (h4 : a4.IsWhole)
    (hc : ¬cond0_0 i) (x0 x1 : Vec Ideal S2048x512 .f32) (xo : Vec Ideal S1x5x512 .f32) (k : Fin 5) (j : Fin 512) :
    out0_B_2 (F := Ideal) c i a2 h2 a3 h3 a4 h4 hc x0 x1 xo (ix3 (0 : Fin 1) k j)
      = xo (ix3 (0 : Fin 1) k j) + ∑ r : Fin 2048, Cert.Spec.stat k (x0 (ix2 r j)) (x1 (ix2 r j)) := by
  unfold out0_B_2
  rw [View.read_writes_eq_canon _ _ _ (cover0_B_2 c i a2 h2 a3 h3 a4 h4 hc x0 x1 xo)]
  unfold kernelRun0_B
  dsimp only
  sl_unfold_words
  simp only [View.readAt_eq_ld, h2.read_unread, h3.read_unread, h4.read_unread, View.ld_unit_zero (S := S2048x512) hz2]
  match k with
  | ⟨0, _⟩ =>
    refine (canon_cons_skip (0 : Fin 5) 4 (by decide) inb_S1x5x512_S1x1x512_0_4_0 _ _ j).trans ?_
    refine (canon_cons_skip (0 : Fin 5) 3 (by decide) inb_S1x5x512_S1x1x512_0_3_0 _ _ j).trans ?_
    refine (canon_cons_skip (0 : Fin 5) 2 (by decide) inb_S1x5x512_S1x1x512_0_2_0 _ _ j).trans ?_
    refine (canon_cons_skip (0 : Fin 5) 1 (by decide) inb_S1x5x512_S1x1x512_0_1_0 _ _ j).trans ?_
    refine (canon_cons_row (0 : Fin 5) inb_S1x5x512_S1x1x512_0_0_0 _ _ j).trans ?_
    rw [pay5_apply]
    exact congrArg₂ (· + ·) (ld_row xo (0 : Fin 5) inb_S1x5x512_S1x1x512_0_0_0 j) rfl
  | ⟨1, _⟩ =>
    refine (canon_cons_skip (1 : Fin 5) 4 (by decide) inb_S1x5x512_S1x1x512_0_4_0 _ _ j).trans ?_
    refine (canon_cons_skip (1 : Fin 5) 3 (by decide) inb_S1x5x512_S1x1x512_0_3_0 _ _ j).trans ?_
    refine (canon_cons_skip (1 : Fin 5) 2 (by decide) inb_S1x5x512_S1x1x512_0_2_0 _ _ j).trans ?_
    refine (canon_cons_row (1 : Fin 5) inb_S1x5x512_S1x1x512_0_1_0 _ _ j).trans ?_
    rw [pay6_apply]
    exact congrArg₂ (· + ·) (ld_row xo (1 : Fin 5) inb_S1x5x512_S1x1x512_0_1_0 j) rfl
  | ⟨2, _⟩ =>
    refine (canon_cons_skip (2 : Fin 5) 4 (by decide) inb_S1x5x512_S1x1x512_0_4_0 _ _ j).trans ?_
    refine (canon_cons_skip (2 : Fin 5) 3 (by decide) inb_S1x5x512_S1x1x512_0_3_0 _ _ j).trans ?_
    refine (canon_cons_row (2 : Fin 5) inb_S1x5x512_S1x1x512_0_2_0 _ _ j).trans ?_
    rw [pay17_apply]
    exact congrArg₂ (· + ·) (ld_row xo (2 : Fin 5) inb_S1x5x512_S1x1x512_0_2_0 j) rfl
  | ⟨3, _⟩ =>
    refine (canon_cons_skip (3 : Fin 5) 4 (by decide) inb_S1x5x512_S1x1x512_0_4_0 _ _ j).trans ?_
    refine (canon_cons_row (3 : Fin 5) inb_S1x5x512_S1x1x512_0_3_0 _ _ j).trans ?_
    rw [pay2_apply]
    exact congrArg₂ (· + ·) (ld_row xo (3 : Fin 5) inb_S1x5x512_S1x1x512_0_3_0 j) rfl
  | ⟨4, _⟩ =>
    refine (canon_cons_row (4 : Fin 5) inb_S1x5x512_S1x1x512_0_4_0 _ _ j).trans ?_
    rw [pay3_apply]
    exact congrArg₂ (· + ·) (ld_row xo (4 : Fin 5) inb_S1x5x512_S1x1x512_0_4_0 j) rfl

/-- The zero fill (a broadcast of +0.0 over the whole block) is zero at every entry. -/
theorem zero_fill_apply (k : Fin 5) (j : Fin 512) : k0_pay4 (F := Ideal) (ix3 (0 : Fin 1) k j) = 0 := by
  unfold k0_pay4
  rw [shapeCast_ab_1ab_apply]
  exact Ideal.ofBits_zero_f32

/-- After the zero fill alone the block is zero. -/
theorem canon_zero_fill (k : Fin 5) (j : Fin 512) :
    View.canon [(⟨Rect.unit (s := S1x5x512) ![0, 0, 0] S1x5x512.size inb_S1x5x512_S1x5x512_0_0_0, k0_pay4 (F := Ideal)⟩ :
      View.Piece (Elt Ideal) S1x5x512 .f32)] (ix3 (0 : Fin 1) k j) = 0 := by
  rw [View.canon_unit_zero hz3]
  exact zero_fill_apply k j

/-- A read-back of row `k` after the stores `L` reads what they leave at (0, k, j). -/
theorem readCov_row (v : View sig .tc .vmem S1x5x512 .f32) (L : List (View.Piece (Elt Ideal) S1x5x512 .f32)) (k : Fin 5)
    (inb : ∀ a, (![0, k.val, 0] : Fin 3 → Nat) a + S1x1x512.size a ≤ S1x5x512.size a) (j : Fin 512) :
    v.readCov L (Rect.unit (s := S1x5x512) ![0, k.val, 0] S1x1x512.size inb).toLoadRect (ix3 (0 : Fin 1) (0 : Fin 1) j)
      = View.canon L (ix3 (0 : Fin 1) k j) := by
  rw [View.readCov_eq_canon']
  exact congrArg (View.canon L) (row_emb k inb j)

/-- THE RESETTING CASE. The body zeroes the block and leaves, at (0, k, j), the tile's column sum of statistic `k` of the
    two input blocks. -/
theorem outA_apply (c : Dev nD) (i : grid0.Coords) (a2 : Memref sig .tc .vmem S2048x512 .f32) (h2 : a2.IsWhole)
    (a3 : Memref sig .tc .vmem S2048x512 .f32) (h3 : a3.IsWhole) (a4 : Memref sig .tc .vmem S1x5x512 .f32) (h4 : a4.IsWhole)
    (hc : cond0_0 i) (x0 x1 : Vec Ideal S2048x512 .f32) (k : Fin 5) (j : Fin 512) :
    out0_A_2 (F := Ideal) c i a2 h2 a3 h3 a4 h4 hc x0 x1 (ix3 (0 : Fin 1) k j)
      = ∑ r : Fin 2048, Cert.Spec.stat k (x0 (ix2 r j)) (x1 (ix2 r j)) := by
  unfold out0_A_2
  rw [View.read_writes_eq_canon _ _ _ (cover0_A_2 c i a2 h2 a3 h3 a4 h4 hc x0 x1)]
  unfold kernelRun0_A
  dsimp only
  sl_unfold_words
  simp only [View.readAt_eq_ld, h2.read_unread, h3.read_unread, View.ld_unit_zero (S := S2048x512) hz2]
  match k with
  | ⟨0, _⟩ =>
    refine (canon_cons_skip (0 : Fin 5) 4 (by decide) inb_S1x5x512_S1x1x512_0_4_0 _ _ j).trans ?_
    refine (canon_cons_skip (0 : Fin 5) 3 (by decide) inb_S1x5x512_S1x1x512_0_3_0 _ _ j).trans ?_
    refine (canon_cons_skip (0 : Fin 5) 2 (by decide) inb_S1x5x512_S1x1x512_0_2_0 _ _ j).trans ?_
    refine (canon_cons_skip (0 : Fin 5) 1 (by decide) inb_S1x5x512_S1x1x512_0_1_0 _ _ j).trans ?_
    refine (canon_cons_row (0 : Fin 5) inb_S1x5x512_S1x1x512_0_0_0 _ _ j).trans ?_
    rw [pay5_apply]
    refine (congrArg₂ (· + ·) ((readCov_row _ _ (0 : Fin 5) inb_S1x5x512_S1x1x512_0_0_0 j).trans
      (canon_zero_fill (0 : Fin 5) j)) rfl).trans (zero_add _)
  | ⟨1, _⟩ =>
    refine (canon_cons_skip (1 : Fin 5) 4 (by decide) inb_S1x5x512_S1x1x512_0_4_0 _ _ j).trans ?_
    refine (canon_cons_skip (1 : Fin 5) 3 (by decide) inb_S1x5x512_S1x1x512_0_3_0 _ _ j).trans ?_
    refine (canon_cons_skip (1 : Fin 5) 2 (by decide) inb_S1x5x512_S1x1x512_0_2_0 _ _ j).trans ?_
    refine (canon_cons_row (1 : Fin 5) inb_S1x5x512_S1x1x512_0_1_0 _ _ j).trans ?_
    rw [pay6_apply]
    refine (congrArg₂ (· + ·) ((readCov_row _ _ (1 : Fin 5) inb_S1x5x512_S1x1x512_0_1_0 j).trans
      ((canon_cons_skip (1 : Fin 5) 0 (by decide) inb_S1x5x512_S1x1x512_0_0_0 _ _ j).trans
        (canon_zero_fill (1 : Fin 5) j))) rfl).trans (zero_add _)
  | ⟨2, _⟩ =>
    refine (canon_cons_skip (2 : Fin 5) 4 (by decide) inb_S1x5x512_S1x1x512_0_4_0 _ _ j).trans ?_
    refine (canon_cons_skip (2 : Fin 5) 3 (by decide) inb_S1x5x512_S1x1x512_0_3_0 _ _ j).trans ?_
    refine (canon_cons_row (2 : Fin 5) inb_S1x5x512_S1x1x512_0_2_0 _ _ j).trans ?_
    rw [pay17_apply]
    refine (congrArg₂ (· + ·) ((readCov_row _ _ (2 : Fin 5) inb_S1x5x512_S1x1x512_0_2_0 j).trans
      ((canon_cons_skip (2 : Fin 5) 1 (by decide) inb_S1x5x512_S1x1x512_0_1_0 _ _ j).trans
        ((canon_cons_skip (2 : Fin 5) 0 (by decide) inb_S1x5x512_S1x1x512_0_0_0 _ _ j).trans
          (canon_zero_fill (2 : Fin 5) j)))) rfl).trans (zero_add _)
  | ⟨3, _⟩ =>
    refine (canon_cons_skip (3 : Fin 5) 4 (by decide) inb_S1x5x512_S1x1x512_0_4_0 _ _ j).trans ?_
    refine (canon_cons_row (3 : Fin 5) inb_S1x5x512_S1x1x512_0_3_0 _ _ j).trans ?_
    rw [pay2_apply]
    refine (congrArg₂ (· + ·) ((readCov_row _ _ (3 : Fin 5) inb_S1x5x512_S1x1x512_0_3_0 j).trans
      ((canon_cons_skip (3 : Fin 5) 2 (by decide) inb_S1x5x512_S1x1x512_0_2_0 _ _ j).trans
        ((canon_cons_skip (3 : Fin 5) 1 (by decide) inb_S1x5x512_S1x1x512_0_1_0 _ _ j).trans
          ((canon_cons_skip (3 : Fin 5) 0 (by decide) inb_S1x5x512_S1x1x512_0_0_0 _ _ j).trans
            (canon_zero_fill (3 : Fin 5) j))))) rfl).trans (zero_add _)
  | ⟨4, _⟩ =>
    refine (canon_cons_row (4 : Fin 5) inb_S1x5x512_S1x1x512_0_4_0 _ _ j).trans ?_
    rw [pay3_apply]
    refine (congrArg₂ (· + ·) ((readCov_row _ _ (4 : Fin 5) inb_S1x5x512_S1x1x512_0_4_0 j).trans
      ((canon_cons_skip (4 : Fin 5) 3 (by decide) inb_S1x5x512_S1x1x512_0_3_0 _ _ j).trans
        ((canon_cons_skip (4 : Fin 5) 2 (by decide) inb_S1x5x512_S1x1x512_0_2_0 _ _ j).trans
          ((canon_cons_skip (4 : Fin 5) 1 (by decide) inb_S1x5x512_S1x1x512_0_1_0 _ _ j).trans
            ((canon_cons_skip (4 : Fin 5) 0 (by decide) inb_S1x5x512_S1x1x512_0_0_0 _ _ j).trans
              (canon_zero_fill (4 : Fin 5) j)))))) rfl).trans (zero_add _)

/-! ## From the cases to the array

The input windows' block at point `t` is rows `2048·t … 2048·t + 2047` of the argument; the output window's block is
core `t / 16`'s, written back after the core's sixteenth tile. -/

variable (m : (ℓ : Loc nD τ sig) → Buf (Elt Ideal) ℓ)

/-- The argument arrays as the region finds them, and the two input blocks at a point, at their literal types. -/
abbrev earr (c : Dev nD) : Vec Ideal S65536x512 .f32 := V m c main_arg0
abbrev tarr (c : Dev nD) : Vec Ideal S65536x512 .f32 := V m c main_arg1
abbrev eblk (c : Dev nD) (t : Fin cfg0.N) : Vec Ideal S2048x512 .f32 := iblk m c 0 t
abbrev tblk (c : Dev nD) (t : Fin cfg0.N) : Vec Ideal S2048x512 .f32 := iblk m c 1 t

/-- The printed index maps over the grid: both inputs' block number is the point's number, the output's is the core's. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 16 ∧ win0_2.index t (1 : Fin 3) = 0 ∧ win0_2.index t (2 : Fin 3) = 0 :=
  (by decide +kernel : ∀ t : Fin grid0.N, _)

theorem eblk_apply (c : Dev nD) (t : Fin cfg0.N) (r : Fin 2048) (j : Fin 512) :
    eblk m c t (ix2 r j) = earr m c (ix2 (Cert.Spec.row (t.val * 2048 + r.val)) j) := by
  have hN : t.val < 32 := lt_of_lt_of_eq t.isLt (show cfg0.N = 32 from N_0)
  obtain ⟨e0, e1, -⟩ := idx_facts t
  unfold eblk iblk
  rw [View.read_apply]
  show V m c main_arg0 _ = V m c main_arg0 _
  congr 1
  funext a
  apply Fin.ext
  match a with
  | ⟨0, _⟩ =>
    show win0_0.index t (0 : Fin 2) * 2048 + 1 * r.val = (t.val * 2048 + r.val) % 65536
    have := r.isLt
    rw [e0]; omega
  | ⟨1, _⟩ =>
    show win0_0.index t (1 : Fin 2) * 512 + 1 * j.val = j.val
    rw [e1]; omega

theorem tblk_apply (c : Dev nD) (t : Fin cfg0.N) (r : Fin 2048) (j : Fin 512) :
    tblk m c t (ix2 r j) = tarr m c (ix2 (Cert.Spec.row (t.val * 2048 + r.val)) j) := by
  have hN : t.val < 32 := lt_of_lt_of_eq t.isLt (show cfg0.N = 32 from N_0)
  obtain ⟨-, -, e0, e1, -⟩ := idx_facts t
  unfold tblk iblk
  rw [View.read_apply]
  show V m c main_arg1 _ = V m c main_arg1 _
  congr 1
  funext a
  apply Fin.ext
  match a with
  | ⟨0, _⟩ =>
    show win0_1.index t (0 : Fin 2) * 2048 + 1 * r.val = (t.val * 2048 + r.val) % 65536
    have := r.isLt
    rw [e0]; omega
  | ⟨1, _⟩ =>
    show win0_1.index t (1 : Fin 2) * 512 + 1 * j.val = j.val
    rw [e1]; omega

/-- Tile `t`'s column sum of statistic `k`, over the two blocks the point reads. -/
theorem tile_eq (c : Dev nD) (t : Fin cfg0.N) (k : Fin 5) (j : Fin 512) :
    Cert.Spec.tileSum (Cert.Spec.mat (earr m c)) (Cert.Spec.mat (tarr m c)) t.val k j
      = ∑ r : Fin 2048, Cert.Spec.stat k (eblk m c t (ix2 r j)) (tblk m c t (ix2 r j)) := by
  unfold Cert.Spec.tileSum Cert.Spec.mat
  exact Finset.sum_congr rfl fun r _ => by rw [eblk_apply, tblk_apply]

/-- The running sum: after point `n` the core has summed the tiles `16·(n/16) … n`. -/
def runSum (c : Dev nD) (n : ℕ) (k : Fin 5) (j : Fin 512) : EReal :=
  ∑ jj ∈ Finset.range (n % 16 + 1), Cert.Spec.tileSum (Cert.Spec.mat (earr m c)) (Cert.Spec.mat (tarr m c)) (n / 16 * 16 + jj) k j

theorem caseA_sum (c : Dev nD) (t : Fin cfg0.N) (h0 : t.val % 16 = 0) (k : Fin 5) (j : Fin 512) :
    (outsAt0 m c t.val t.isLt : Vec Ideal S1x5x512 .f32) (ix3 (0 : Fin 1) k j) = runSum m c t.val k j := by
  rw [outsAt0_A m c t h0]
  refine (outA_apply c (grid0.coords t) (ms0_0 t) (hs0_0 t) (ms0_1 t) (hs0_1 t) (ms0_2 t) (hs0_2 t)
    ((hcond0_0 t).mpr h0) (eblk m c t) (tblk m c t) k j).trans ?_
  unfold runSum
  rw [h0, Finset.sum_range_one, ← tile_eq m c t k j]
  have e : t.val / 16 * 16 + 0 = t.val := by omega
  rw [e]

theorem caseB_sum (c : Dev nD) (t : Fin cfg0.N) (h0 : ¬t.val % 16 = 0) (k : Fin 5) (j : Fin 512)
    (ih : (outsAt0 m c (t.val - 1) (Nat.lt_of_le_of_lt (Nat.sub_le _ _) t.isLt) : Vec Ideal S1x5x512 .f32) (ix3 (0 : Fin 1) k j)
      = runSum m c (t.val - 1) k j) :
    (outsAt0 m c t.val t.isLt : Vec Ideal S1x5x512 .f32) (ix3 (0 : Fin 1) k j) = runSum m c t.val k j := by
  rw [outsAt0_B m c t h0]
  refine (outB_apply c (grid0.coords t) (ms0_0 t) (hs0_0 t) (ms0_1 t) (hs0_1 t) (ms0_2 t) (hs0_2 t)
    (fun h => h0 ((hcond0_0 t).mp h)) (eblk m c t) (tblk m c t)
    (outsAt0 m c (t.val - 1) (Nat.lt_of_le_of_lt (Nat.sub_le _ _) t.isLt)) k j).trans ?_
  rw [ih, ← tile_eq m c t k j]
  unfold runSum
  have e1 : (t.val - 1) % 16 + 1 = t.val % 16 := by omega
  have e2 : (t.val - 1) / 16 = t.val / 16 := by omega
  have e3 : t.val / 16 * 16 + t.val % 16 = t.val := by omega
  rw [e1, e2, Finset.sum_range_succ, e3]

/-- What the output's staging buffer holds after point `n`, at (0, k, j), is the running sum: by induction on the point. -/
theorem outsAt_apply (c : Dev nD) (k : Fin 5) (j : Fin 512) : ∀ (n : ℕ) (h : n < cfg0.N),
    (outsAt0 m c n h : Vec Ideal S1x5x512 .f32) (ix3 (0 : Fin 1) k j) = runSum m c n k j := by
  intro n
  induction n with
  | zero => intro h; exact caseA_sum m c ⟨0, h⟩ rfl k j
  | succ n ih =>
    intro h
    by_cases h0 : (n + 1) % 16 = 0
    · exact caseA_sum m c ⟨n + 1, h⟩ h0 k j
    · exact caseB_sum m c ⟨n + 1, h⟩ h0 k j (ih (Nat.lt_of_succ_lt h))

/-- The same at any entry of the block (its leading coordinate is 0). -/
theorem outsAt_idx (c : Dev nD) (n : ℕ) (h : n < cfg0.N) (y : S1x5x512.Idx) :
    (outsAt0 m c n h : Vec Ideal S1x5x512 .f32) y = runSum m c n (y 1) (y 2) := by
  have e : y = ix3 (0 : Fin 1) (y 1) (y 2) := by
    funext a
    match a with
    | ⟨0, _⟩ =>
      apply Fin.ext
      have h1 : (y 0).val < 1 := (y 0).isLt
      show (y 0).val = 0
      omega
    | ⟨1, _⟩ => rfl
    | ⟨2, _⟩ => rfl
  exact (congrArg (outsAt0 m c n h : Vec Ideal S1x5x512 .f32) e).trans (outsAt_apply m c (y 1) (y 2) n h)

/-- WHAT A WRITE-BACK WRITES. The output is written back after a core's sixteenth tile, and what is written is that
    core's block of the cores' sums. -/
theorem flushed_eq (c : Dev nD) (t : Fin cfg0.N) (hf : (cfg0.win 2).flush t = true) :
    (dats m 0 c).flushed 2 t = ((cfg0.win 2).blk t).view.read (Elt Ideal) (partialsArr (earr m c) (tarr m c)) := by
  have hN : t.val < 32 := lt_of_lt_of_eq t.isLt (show cfg0.N = 32 from N_0)
  have h15 : t.val % 16 = 15 := (flush0_2 t).mp hf
  obtain ⟨-, -, -, -, e0, e1, e2⟩ := idx_facts t
  show (cfg0.win 2).cut (grid0.coords t) ((dats m 0 c).after 2 t) = _
  rw [after0_2]
  funext y
  rw [View.read_apply]
  refine (outsAt_idx m c t.val t.isLt y).trans ?_
  have hemb : ((cfg0.win 2).blk t).view.emb y = (ix3 (⟨t.val / 16, by omega⟩ : Fin 2) (y 1) (y 2) : S2x5x512.Idx) := by
    funext a
    apply Fin.ext
    match a with
    | ⟨0, _⟩ =>
      show win0_2.index t (0 : Fin 3) * 1 + 1 * (y 0).val = t.val / 16
      have h1 : (y 0).val < 1 := (y 0).isLt
      rw [e0]; omega
    | ⟨1, _⟩ =>
      show win0_2.index t (1 : Fin 3) * 5 + 1 * (y 1).val = (y 1).val
      rw [e1]; omega
    | ⟨2, _⟩ =>
      show win0_2.index t (2 : Fin 3) * 512 + 1 * (y 2).val = (y 2).val
      rw [e2]; omega
  rw [hemb]
  show runSum m c t.val (y 1) (y 2)
    = Cert.Spec.coreSum (Cert.Spec.mat (earr m c)) (Cert.Spec.mat (tarr m c)) (t.val / 16) (y 1) (y 2)
  unfold runSum Cert.Spec.coreSum
  rw [h15]

/-- An entry of the result array is in point `t`'s block iff each coordinate is in the block's range. -/
theorem mem_blk (t : Fin cfg0.N) (i : S2x5x512.Idx) :
    i ∈ ((cfg0.win 2).blk t).view.set ↔ ∀ a : Fin 3, win0_2.index t a * S1x5x512.size a ≤ (i a).val
      ∧ (i a).val < win0_2.index t a * S1x5x512.size a + S1x5x512.size a := by
  show i ∈ ((View.whole main_v0).slice (win0_2.rect t)).set ↔ _
  rw [View.set_slice_whole, Rect.mem_set_unit]
  exact Iff.rfl

/-- Every entry of the result array is written back: entry (p, k, j) after core `p`'s last tile. -/
theorem covered (i : S2x5x512.Idx) :
    ∃ t : Fin cfg0.N, (cfg0.win 2).flush t = true ∧ i ∈ ((cfg0.win 2).blk t).view.set := by
  have hi0 : (i 0).val < 2 := (i 0).isLt
  have hi1 : (i 1).val < 5 := (i 1).isLt
  have hi2 : (i 2).val < 512 := (i 2).isLt
  have hN : cfg0.N = 32 := N_0
  have hlt : (i 0).val * 16 + 15 < cfg0.N := by rw [hN]; omega
  obtain ⟨-, -, -, -, e0, e1, e2⟩ := idx_facts ⟨(i 0).val * 16 + 15, hlt⟩
  refine ⟨⟨(i 0).val * 16 + 15, hlt⟩, (flush0_2 _).mpr (by show ((i 0).val * 16 + 15) % 16 = 15; omega), ?_⟩
  rw [mem_blk]
  intro a
  match a with
  | ⟨0, _⟩ =>
    show win0_2.index ⟨(i 0).val * 16 + 15, hlt⟩ (0 : Fin 3) * 1 ≤ (i 0).val
      ∧ (i 0).val < win0_2.index ⟨(i 0).val * 16 + 15, hlt⟩ (0 : Fin 3) * 1 + 1
    rw [e0]
    show ((i 0).val * 16 + 15) / 16 * 1 ≤ (i 0).val ∧ (i 0).val < ((i 0).val * 16 + 15) / 16 * 1 + 1
    omega
  | ⟨1, _⟩ =>
    show win0_2.index ⟨(i 0).val * 16 + 15, hlt⟩ (1 : Fin 3) * 5 ≤ (i 1).val
      ∧ (i 1).val < win0_2.index ⟨(i 0).val * 16 + 15, hlt⟩ (1 : Fin 3) * 5 + 5
    rw [e1]; omega
  | ⟨2, _⟩ =>
    show win0_2.index ⟨(i 0).val * 16 + 15, hlt⟩ (2 : Fin 3) * 512 ≤ (i 2).val
      ∧ (i 2).val < win0_2.index ⟨(i 0).val * 16 + 15, hlt⟩ (2 : Fin 3) * 512 + 512
    rw [e2]; omega

/-- THE RESULT ARRAY after the region: the two cores' sums of the five statistics of the argument arrays. -/
theorem final_v0 (c : Dev nD) : (dats m 0 c).arrAt 2 cfg0.N = partialsArr (earr m c) (tarr m c) :=
  (dats m 0 c).arrAt_eq_of_cover 2 (partialsArr (earr m c) (tarr m c)) (flushed_eq m c) covered

end Cert.KernelIdeal.Hand

end
-- ==== Proof.KRun.lean ====
/-
  The idealized kernel's run, read: the host operations after the region applied to the region's result array.

  After the region the result array holds the two cores' sums of the five column statistics (the blocks module); the
  operations that follow read only that array, so the program's result buffer ends at their composed term of it, and
  the two argument arrays end as they were.
-/
import proofs.«144512_j30288109372144_1_alg».proof.Proof.KBlocks
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- What the result buffer holds after the operations that follow the region: their term of the cores' sums. -/
theorem tail_eq (c : Dev nD) :
    Pipeline.afterTail₀ cfgs (dats m) 0 (V0 m) [hostOps1] c main_v47
      = tailTerm (F := Ideal) (partialsArr (earr m c) (tarr m c)) := by
  unfold Pipeline.afterTail₀
  show StableHlo.after hostOps1 _ (Proc.devRef .tc main_v47) = _
  after_results_simp
  have hw : Pipeline.withArrays (cfgs 0).spec c (V0 m c) (fun w => (dats m 0 c).arrAt w (cfgs 0).N) (Proc.devRef .tc main_v0)
      = (dats m 0 c).arrAt 2 cfg0.N :=
    Pipeline.withArrays_arr spec0 launch0.win.arr_inj c (V0 m c) (fun w => (dats m 0 c).arrAt w cfg0.N) 2
  rw [hw, final_v0 m c]
  rfl

/-- The result buffer is neither scoped nor an array of the pipeline. -/
theorem v47_rest : main_v47 ∈ Pipeline.restRefs sig (cfgs 0).spec :=
  Pipeline.mem_restRefs_of main_v47 rfl (fun w => by fin_cases w <;> decide)

/-- Every weakly fair execution of the idealized kernel terminates with its result at the tail's term of the cores'
    sums of the two arguments' launch contents, the arguments unchanged. -/
theorem run : θ_run defs (onTc (τ := τ) (main (F := Ideal))) ⟨m, fun _ => 0, ρ⟩ fun r => ∀ c : Dev nD,
      r.2.mem ((c.tc : Thread nD τ).loc main_v47)
          = tailTerm (F := Ideal) (partialsArr (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v47 v47_rest).trans ((tail_eq m c).trans
        (congrArg₂ (fun a b => tailTerm (F := Ideal) (partialsArr a b)) (V_main_arg0 m c) (V_main_arg1 m c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Hand

end
-- ==== Proof.KTailValue.lean ====
import proofs.«144512_j30288109372144_1_alg».proof.Proof.KTailTerm
import Idealize.ShloMosaic.Lib.ValueIdx
import Idealize.ShloMosaic.Lib.ValueLayout
import Idealize.ShloMosaic.Lib.Pipeline.Value
import Idealize.ShloMosaic.PureOps.Ideal.Laws

/-!
  The host operations after the kernel region, read over the extended reals. Applied to the two cores' partial
  sums of the five column statistics, they compute the specification's kernel loss: the first reduction adds the two
  cores' sums into the column sums, each slice and cast picks one statistic's row of sums, the pointwise operations
  spell the normalised diagonal entry column by column, and the last reduction sums the squared deviations from one.
-/

noncomputable section

namespace Cert.KernelIdeal.Hand

open Idealize.ShloMosaic Idealize.ShloMosaic.ValueIdx Cert.KernelIdeal Cert.KernelIdeal.Gen

/-- The first reduction at row `k`, column `j`: zero plus the two cores' sums, the specification's column sum. -/
theorem sums_apply (e t : FVec Ideal S65536x512 .f32) (k : Fin 5) (j : Fin 512) :
    Host.reduceAdd (F := Ideal) (partialsArr e t) (constant (F := Ideal) S_ .f32 0x00000000#32)
        reducesTo_S2x5x512_S5x512_d0 h_S_ (ix2 k j)
      = Cert.Spec.kSum (Cert.Spec.mat e) (Cert.Spec.mat t) k j := by
  show Ideal.hostReduceAdd reducesTo_S2x5x512_S5x512_d0 (partialsArr e t) _ (ix2 k j) = _
  rw [Ideal.hostReduceAdd_single reducesTo_S2x5x512_S5x512_d0 (by decide : S2x5x512.Reduces [0] S5x512)]
  rfl

/-- The one-row slice starting at row `o` of a five-row array, cast to a vector, reads row `o`. -/
theorem row_apply {α : Type} (v1 : S5x512.Idx → α) (o : ℕ) (k : Fin 5) (hk : k.val = o)
    (hs : S5x512.Slices ![o, 0] S1x512) (j : Fin 512) :
    shapeCast S512 (extractStridedSlice S1x512 ![o, 0] v1 hs) shapeCasts_S1x512_S512 (ix1 j) = v1 (ix2 k j) := by
  rw [shapeCast_1a_a_apply]
  exact slice2_axis0_apply o v1 hs 0 j k hk

/-- A scalar broadcast to a vector reads the scalar at every column. -/
theorem bcast_apply {α : Type} (c : S_.Idx → α) (j : Fin 512) :
    broadcastInDim S512 ![] bcast_S_S512 c (ix1 j) = c ix0 :=
  broadcastInDim_apply _ _ _ _ _ (fun a => a.elim0)

/-- The host's quotient at an index is the extended reals' division of the elements. -/
theorem hostDivf_apply {s : Shape} (a b : FVec Ideal s .f32) (i : s.Idx) : Host.divf a b i = Ideal.div (a i) (b i) := rfl

/-- The host's square root at an index is the extended reals' square root of the element. -/
theorem hostSqrt_apply {s : Shape} (a : FVec Ideal s .f32) (i : s.Idx) : Host.sqrt a i = Ideal.sqrt (a i) := rfl

/-- A sum over the indices of a one-axis shape is the sum over the coordinate. -/
theorem sum_ix1 {M : Type} [AddCommMonoid M] {n : ℕ} (f : (⟨1, ![n]⟩ : Shape).Idx → M) :
    ∑ i, f i = ∑ a : Fin n, f (ix1 a) :=
  Fintype.sum_equiv ⟨fun i => i 0, ix1, fun i => (eq_ix1 i).symm, fun _ => rfl⟩ _ _ (fun i => congrArg f (eq_ix1 i))

/-- At the ideal instance the host tail applied to the cores' partial sums of two arrays is the specification's kernel loss of the arrays read as tables. -/
theorem tailTerm_eq (e t : FVec Ideal S65536x512 .f32) :
    tailTerm (F := Ideal) (partialsArr e t) = fun _ => Cert.Spec.kLoss (Cert.Spec.mat e) (Cert.Spec.mat t) := by
  funext i
  unfold tailTerm
  dsimp only
  -- the last reduction, into the rank-zero shape: zero plus the sum over every column
  show Ideal.hostReduceAdd reducesTo_S512_S_d0 _ _ i = _
  rw [Ideal.hostReduceAdd_total reducesTo_S512_S_d0 (fun b => b.elim0), sum_ix1]
  refine congrArg₂ (· + ·) rfl (Finset.sum_congr rfl fun j _ => ?_)
  -- column `j`: the pointwise operations at `j`, the five rows of column sums read there
  simp only [mulf_apply, subf_apply, addf_apply, hostDivf_apply, hostSqrt_apply,
    row_apply _ 0 0 rfl, row_apply _ 1 1 rfl, row_apply _ 2 2 rfl, row_apply _ 3 3 rfl, row_apply _ 4 4 rfl, sums_apply]
  -- the four broadcast scalars: one, the batch size, the batch size less one, the stabiliser
  rw [bcast_apply, bcast_apply, bcast_apply, bcast_apply]
  -- what is left is the specification's summand, spelled with the same constants in the same order
  rfl

end Cert.KernelIdeal.Hand

end
-- ==== Proof.RefTerm.lean ====
/-
  The reference's result as ONE function of its two argument arrays: its host operations composed, in the order and
  spelling the program prints them. A column's normalisation (`normTerm`) — subtract the column mean, divide by the
  column's unbiased standard deviation plus ε — is applied to each argument; the product's column sums over B give the
  diagonal, and the loss is the sum over the columns of (1 − diagonal)².
-/
import proofs.«144512_j30288109372144_1_alg».proof.ReferenceIdeal
import proofs.«144512_j30288109372144_1_alg».proof.Proof.Gen.ReferenceIdeal

noncomputable section

namespace Cert.ReferenceIdeal.Hand

open Idealize.ShloMosaic Cert.ReferenceIdeal Cert.ReferenceIdeal.Gen

variable {F : FTy → Type} [FloatOps F]

/-- The unbiased column variance as the reference's outlined variance function spells it: the column mean (sum over B), the centred
    squares summed, divided by B minus the converted integer `ddof`, kept only where that divisor is positive
    (else the not-a-number word). -/
def varTerm (x : FVec F S65536x512 .f32) (ddof : IVec S_ 32) : FVec F S512 .f32 :=
  let cst : FVec F S_ .f32 := constant S_ .f32 0x00000000#32
  let v0 : FVec F S512 .f32 := Host.reduceAdd x cst reducesTo_S65536x512_S512_d0 h_S_
  let v1 : FVec F S1x512 .f32 := broadcastInDim S1x512 ![1] bcast_S512_S1x512_1 v0
  let cst_0 : FVec F S_ .f32 := constant S_ .f32 0x47800000#32
  let v2 : FVec F S1x512 .f32 := broadcastInDim S1x512 ![] bcast_S_S1x512 cst_0
  let v3 : FVec F S1x512 .f32 := Host.divf v1 v2
  let v4 : FVec F S65536x512 .f32 := broadcastInDim S65536x512 ![0, 1] bcast_S1x512_S65536x512_0_1 v3
  let v5 : FVec F S65536x512 .f32 := subf x v4
  let v6 : FVec F S65536x512 .f32 := mulf v5 v5
  let v7 : FVec F S_ .f32 := sitofp .f32 ddof
  let cst_1 : FVec F S_ .f32 := constant S_ .f32 0x47800000#32
  let v8 : FVec F S_ .f32 := subf cst_1 v7
  let cst_2 : FVec F S_ .f32 := constant S_ .f32 0x00000000#32
  let v9 : FVec F S512 .f32 := Host.reduceAdd v6 cst_2 reducesTo_S65536x512_S512_d0 h_S_
  let v10 : FVec F S512 .f32 := broadcastInDim S512 ![] bcast_S_S512 v8
  let v11 : FVec F S512 .f32 := Host.divf v9 v10
  let cst_3 : FVec F S_ .f32 := constant S_ .f32 0x00000000#32
  let v12 : IVec S_ 1 := cmpf .ogt v8 cst_3
  let cst_4 : FVec F S_ .f32 := constant S_ .f32 0x7FC00000#32
  let w0 : FVec F S_ .f32 := id cst_4
  let w1 : FVec F S512 .f32 := broadcastInDim S512 ![] bcast_S_S512 w0
  select (broadcastInDim S512 ![] bcast_S_S512 v12) v11 w1

/-- One argument normalised: centred by its column mean, over the column's standard deviation plus ε. -/
def normTerm (x : FVec F S65536x512 .f32) : FVec F S65536x512 .f32 :=
  let cst : FVec F S_ .f32 := constant S_ .f32 0x00000000#32
  let v0 : FVec F S512 .f32 := Host.reduceAdd x cst reducesTo_S65536x512_S512_d0 h_S_
  let cst_0 : FVec F S_ .f32 := constant S_ .f32 0x47800000#32
  let v1 : FVec F S512 .f32 := broadcastInDim S512 ![] bcast_S_S512 cst_0
  let v2 : FVec F S512 .f32 := Host.divf v0 v1
  let v3 : FVec F S1x512 .f32 := broadcastInDim S1x512 ![1] bcast_S512_S1x512_1 v2
  let v4 : FVec F S65536x512 .f32 := broadcastInDim S65536x512 ![0, 1] bcast_S1x512_S65536x512_0_1 v3
  let v5 : FVec F S65536x512 .f32 := subf x v4
  let c : IVec S_ 32 := constantI S_ 32 1#32
  let v6 : FVec F S512 .f32 := Host.sqrt (varTerm x c)
  let cst_1 : FVec F S_ .f32 := constant S_ .f32 0x3089705F#32
  let v7 : FVec F S512 .f32 := broadcastInDim S512 ![] bcast_S_S512 cst_1
  let v8 : FVec F S512 .f32 := addf v6 v7
  let v9 : FVec F S1x512 .f32 := broadcastInDim S1x512 ![1] bcast_S512_S1x512_1 v8
  let v10 : FVec F S65536x512 .f32 := broadcastInDim S65536x512 ![0, 1] bcast_S1x512_S65536x512_0_1 v9
  Host.divf v5 v10

/-- The reference's result from its two arguments. -/
def refTerm (e t : FVec F S65536x512 .f32) : FVec F S_ .f32 :=
  let v24 : FVec F S65536x512 .f32 := mulf (normTerm e) (normTerm t)
  let cst_6 : FVec F S_ .f32 := constant S_ .f32 0x00000000#32
  let v25 : FVec F S512 .f32 := Host.reduceAdd v24 cst_6 reducesTo_S65536x512_S512_d0 h_S_
  let cst_7 : FVec F S_ .f32 := constant S_ .f32 0x47800000#32
  let v26 : FVec F S512 .f32 := broadcastInDim S512 ![] bcast_S_S512 cst_7
  let v27 : FVec F S512 .f32 := Host.divf v25 v26
  let cst_8 : FVec F S_ .f32 := constant S_ .f32 0x3F800000#32
  let v28 : FVec F S512 .f32 := broadcastInDim S512 ![] bcast_S_S512 cst_8
  let v29 : FVec F S512 .f32 := subf v28 v27
  let v30 : FVec F S512 .f32 := mulf v29 v29
  let cst_9 : FVec F S_ .f32 := constant S_ .f32 0x00000000#32
  Host.reduceAdd v30 cst_9 reducesTo_S512_S_d0 h_S_

end Cert.ReferenceIdeal.Hand

end
-- ==== Proof.RefRun.lean ====
/-
  The reference's run. The reference is a host program with no kernel: its @main is a straight line of array
  operations once its three module-local functions are substituted at their call sites — the standard deviation of the
  columns (a square root), which calls the unbiased column variance, which calls the elementwise choice between two
  arrays by a scalar test. Each of the two arguments is normalised through one such call, so the line has 88
  operations: 42 of @main's own and, per call, 19 of the variance, 3 of the choice and the square root.

  `ops` lists them in program order, each callee's operations at its call site over that call's own buffers;
  `main_eq` says @main is that line; `out_eq` says the fold of the operations' results over any contents of the
  buffers, read at the result buffer, is `refTerm` of the contents of the two argument buffers (every buffer is
  written by exactly one operation, so the fold at a buffer is its operation's function of the folds at its operands:
  the composition `refTerm` spells); `arg0_eq` / `arg1_eq` say no operation writes an argument. `run` puts these
  through the run of a straight line: every weakly fair execution terminates with every buffer at the fold over
  the launch contents. The reductions, the quotients, the square roots and the broadcasts over the 65536×512 arrays stay
  unevaluated throughout: the equalities hold of the terms, for any float values.
-/
import proofs.«144512_j30288109372144_1_alg».proof.Proof.RefTerm
import Idealize.ShloMosaic.Lib.StableHlo.Run

noncomputable section

namespace Cert.ReferenceIdeal.Hand

open Idealize.ShloMosaic Idealize.ShloMosaic.TcCoe Idealize.SL.Sem Idealize.ShloMosaic.StableHlo
open Cert.ReferenceIdeal Cert.ReferenceIdeal.Gen

variable {F : FTy → Type} [FloatOps F]

/-- @main's 88 operations in order, the calls substituted. The first argument's normalisation is operations 0–37:
    the column mean and the centred argument (0–8, ending with the integer one handed to the variance), the variance
    (9–27: the mean again, the centred squares summed, the divisor 65536 minus the converted integer, the quotient, the
    divisor's positivity test and the not-a-number word), the choice (28–30), the square root (31), then ε added, the
    result broadcast over the rows and the centred argument divided by it (32–37). The second argument's is 38–75 in
    the same order over its own buffers. Then the product, its column sums over 65536, one minus that, squared, and the
    sum over the 512 columns (76–87). -/
abbrev ops : List (HloOp τ sig (Elt F)) :=
  [ nullary main_cst (constant S_ .f32 0x00000000#32),
    binary main_arg0 main_cst main_v0 (fun x v => Host.reduceAdd x v reducesTo_S65536x512_S512_d0 h_S_),
    nullary main_cst_0 (constant S_ .f32 0x47800000#32),
    unary main_cst_0 main_v1 (broadcastInDim S512 ![] bcast_S_S512),
    binary main_v0 main_v1 main_v2 Host.divf,
    unary main_v2 main_v3 (broadcastInDim S1x512 ![1] bcast_S512_S1x512_1),
    unary main_v3 main_v4 (broadcastInDim S65536x512 ![0, 1] bcast_S1x512_S65536x512_0_1),
    binary main_arg0 main_v4 main_v5 subf,
    nullary main_c (constantI S_ 32 1#32),
    TRef.nullary main_call0.call0.cst (constant S_ .f32 0x00000000#32),
    TRef.binary (.of main_arg0 : TRef sig ⟨S65536x512, .f32⟩) main_call0.call0.cst main_call0.call0.v0 (fun x v => Host.reduceAdd x v reducesTo_S65536x512_S512_d0 h_S_),
    TRef.unary main_call0.call0.v0 main_call0.call0.v1 (broadcastInDim S1x512 ![1] bcast_S512_S1x512_1),
    TRef.nullary main_call0.call0.cst_0 (constant S_ .f32 0x47800000#32),
    TRef.unary main_call0.call0.cst_0 main_call0.call0.v2 (broadcastInDim S1x512 ![] bcast_S_S1x512),
    TRef.binary main_call0.call0.v1 main_call0.call0.v2 main_call0.call0.v3 Host.divf,
    TRef.unary main_call0.call0.v3 main_call0.call0.v4 (broadcastInDim S65536x512 ![0, 1] bcast_S1x512_S65536x512_0_1),
    TRef.binary (.of main_arg0 : TRef sig ⟨S65536x512, .f32⟩) main_call0.call0.v4 main_call0.call0.v5 subf,
    TRef.binary main_call0.call0.v5 main_call0.call0.v5 main_call0.call0.v6 mulf,
    TRef.unary (.of main_c : TRef sig ⟨S_, .i32⟩) main_call0.call0.v7 (sitofp .f32),
    TRef.nullary main_call0.call0.cst_1 (constant S_ .f32 0x47800000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S65536x512_S512_d0 h_S_),
    TRef.unary main_call0.call0.v8 main_call0.call0.v10 (broadcastInDim S512 ![] bcast_S_S512),
    TRef.binary main_call0.call0.v9 main_call0.call0.v10 main_call0.call0.v11 Host.divf,
    TRef.nullary main_call0.call0.cst_3 (constant S_ .f32 0x00000000#32),
    TRef.binary main_call0.call0.v8 main_call0.call0.cst_3 main_call0.call0.v12 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S512 ![] bcast_S_S512),
    TRef.ternary main_call0.call0.v12 main_call0.call0.v11 main_call0.call0.call0.v1 main_call0.call0.call0.v2 (fun p a b => select (broadcastInDim S512 ![] bcast_S_S512 p) a b),
    TRef.unary main_call0.call0.call0.v2 main_call0.v1 Host.sqrt,
    nullary main_cst_1 (constant S_ .f32 0x3089705F#32),
    unary main_cst_1 main_v7 (broadcastInDim S512 ![] bcast_S_S512),
    binary main_v6 main_v7 main_v8 addf,
    unary main_v8 main_v9 (broadcastInDim S1x512 ![1] bcast_S512_S1x512_1),
    unary main_v9 main_v10 (broadcastInDim S65536x512 ![0, 1] bcast_S1x512_S65536x512_0_1),
    binary main_v5 main_v10 main_v11 Host.divf,
    nullary main_cst_2 (constant S_ .f32 0x00000000#32),
    binary main_arg1 main_cst_2 main_v12 (fun x v => Host.reduceAdd x v reducesTo_S65536x512_S512_d0 h_S_),
    nullary main_cst_3 (constant S_ .f32 0x47800000#32),
    unary main_cst_3 main_v13 (broadcastInDim S512 ![] bcast_S_S512),
    binary main_v12 main_v13 main_v14 Host.divf,
    unary main_v14 main_v15 (broadcastInDim S1x512 ![1] bcast_S512_S1x512_1),
    unary main_v15 main_v16 (broadcastInDim S65536x512 ![0, 1] bcast_S1x512_S65536x512_0_1),
    binary main_arg1 main_v16 main_v17 subf,
    nullary main_c_4 (constantI S_ 32 1#32),
    TRef.nullary main_call1.call0.cst (constant S_ .f32 0x00000000#32),
    TRef.binary (.of main_arg1 : TRef sig ⟨S65536x512, .f32⟩) main_call1.call0.cst main_call1.call0.v0 (fun x v => Host.reduceAdd x v reducesTo_S65536x512_S512_d0 h_S_),
    TRef.unary main_call1.call0.v0 main_call1.call0.v1 (broadcastInDim S1x512 ![1] bcast_S512_S1x512_1),
    TRef.nullary main_call1.call0.cst_0 (constant S_ .f32 0x47800000#32),
    TRef.unary main_call1.call0.cst_0 main_call1.call0.v2 (broadcastInDim S1x512 ![] bcast_S_S1x512),
    TRef.binary main_call1.call0.v1 main_call1.call0.v2 main_call1.call0.v3 Host.divf,
    TRef.unary main_call1.call0.v3 main_call1.call0.v4 (broadcastInDim S65536x512 ![0, 1] bcast_S1x512_S65536x512_0_1),
    TRef.binary (.of main_arg1 : TRef sig ⟨S65536x512, .f32⟩) main_call1.call0.v4 main_call1.call0.v5 subf,
    TRef.binary main_call1.call0.v5 main_call1.call0.v5 main_call1.call0.v6 mulf,
    TRef.unary (.of main_c_4 : TRef sig ⟨S_, .i32⟩) main_call1.call0.v7 (sitofp .f32),
    TRef.nullary main_call1.call0.cst_1 (constant S_ .f32 0x47800000#32),
    TRef.binary main_call1.call0.cst_1 main_call1.call0.v7 main_call1.call0.v8 subf,
    TRef.nullary main_call1.call0.cst_2 (constant S_ .f32 0x00000000#32),
    TRef.binary main_call1.call0.v6 main_call1.call0.cst_2 main_call1.call0.v9 (fun x v => Host.reduceAdd x v reducesTo_S65536x512_S512_d0 h_S_),
    TRef.unary main_call1.call0.v8 main_call1.call0.v10 (broadcastInDim S512 ![] bcast_S_S512),
    TRef.binary main_call1.call0.v9 main_call1.call0.v10 main_call1.call0.v11 Host.divf,
    TRef.nullary main_call1.call0.cst_3 (constant S_ .f32 0x00000000#32),
    TRef.binary main_call1.call0.v8 main_call1.call0.cst_3 main_call1.call0.v12 (cmpf .ogt),
    TRef.nullary main_call1.call0.cst_4 (constant S_ .f32 0x7FC00000#32),
    TRef.unary main_call1.call0.cst_4 main_call1.call0.call0.v0 id,
    TRef.unary main_call1.call0.call0.v0 main_call1.call0.call0.v1 (broadcastInDim S512 ![] bcast_S_S512),
    TRef.ternary main_call1.call0.v12 main_call1.call0.v11 main_call1.call0.call0.v1 main_call1.call0.call0.v2 (fun p a b => select (broadcastInDim S512 ![] bcast_S_S512 p) a b),
    TRef.unary main_call1.call0.call0.v2 main_call1.v1 Host.sqrt,
    nullary main_cst_5 (constant S_ .f32 0x3089705F#32),
    unary main_cst_5 main_v19 (broadcastInDim S512 ![] bcast_S_S512),
    binary main_v18 main_v19 main_v20 addf,
    unary main_v20 main_v21 (broadcastInDim S1x512 ![1] bcast_S512_S1x512_1),
    unary main_v21 main_v22 (broadcastInDim S65536x512 ![0, 1] bcast_S1x512_S65536x512_0_1),
    binary main_v17 main_v22 main_v23 Host.divf,
    binary main_v11 main_v23 main_v24 mulf,
    nullary main_cst_6 (constant S_ .f32 0x00000000#32),
    binary main_v24 main_cst_6 main_v25 (fun x v => Host.reduceAdd x v reducesTo_S65536x512_S512_d0 h_S_),
    nullary main_cst_7 (constant S_ .f32 0x47800000#32),
    unary main_cst_7 main_v26 (broadcastInDim S512 ![] bcast_S_S512),
    binary main_v25 main_v26 main_v27 Host.divf,
    nullary main_cst_8 (constant S_ .f32 0x3F800000#32),
    unary main_cst_8 main_v28 (broadcastInDim S512 ![] bcast_S_S512),
    binary main_v28 main_v27 main_v29 subf,
    binary main_v29 main_v29 main_v30 mulf,
    nullary main_cst_9 (constant S_ .f32 0x00000000#32),
    binary main_v30 main_cst_9 main_v31 (fun x v => Host.reduceAdd x v reducesTo_S512_S_d0 h_S_) ]

set_option maxRecDepth 2048 in
/-- @main is that straight line: a program here is a finite tree of operation requests and sequencing grafts the
    continuation at the leaves, so with the three functions' definitions substituted at their calls and the calls'
    buffer records read at their fields both sides compute to the same chain of operation steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., nullary_bufs_sub .., unary_bufs_sub .., binary_bufs_sub .., unary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., nullary_bufs_sub .., unary_bufs_sub ..,
    binary_bufs_sub .., unary_bufs_sub .., unary_bufs_sub .., binary_bufs_sub .., binary_bufs_sub .., nullary_bufs_sub ..,
    binary_bufs_sub .., nullary_bufs_sub .., unary_bufs_sub .., binary_bufs_sub .., nullary_bufs_sub .., unary_bufs_sub ..,
    binary_bufs_sub .., binary_bufs_sub .., nullary_bufs_sub .., binary_bufs_sub ..⟩

/-- From any memory with zero counters every weakly fair execution of @main terminates, each TensorCore buffer at
    the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduceAdd Host.divf Host.sqrt broadcastInDim in
/-- The fold read at the result buffer is `refTerm` of the two arguments' contents: each buffer has one writer, so
    the fold at a buffer is its writer's function of the fold at the writer's operands, down to the arguments, which
    nothing writes; the typed references' transports are the identity at these literal buffers. -/
theorem out_eq (V : Valuation τ sig (Elt F)) :
    after ops V (main_v31 : DevRef τ sig) = refTerm (V (main_arg0 : DevRef τ sig)) (V (main_arg1 : DevRef τ sig)) := by
  after_results_simp
  rfl

/-- No operation writes the first argument. -/
theorem arg0_eq (V : Valuation τ sig (Elt F)) :
    after ops V (main_arg0 : DevRef τ sig) = V (main_arg0 : DevRef τ sig) := by
  after_results_simp

/-- No operation writes the second argument. -/
theorem arg1_eq (V : Valuation τ sig (Elt F)) :
    after ops V (main_arg1 : DevRef τ sig) = V (main_arg1 : DevRef τ sig) := by
  after_results_simp

/-- Every weakly fair execution of the reference terminates with its result buffer at refTerm of the two arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
          = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v31).trans (out_eq (launchContents m c)),
      (h c main_arg0).trans (arg0_eq (launchContents m c)),
      (h c main_arg1).trans (arg1_eq (launchContents m c))⟩)
    (run_main m ρ)

end Cert.ReferenceIdeal.Hand

end
-- ==== Proof.RefValue.lean ====
/-
  The reference's composed term read at the ideal instance, where floats are extended reals and every operation is
  exact: element by element it is the closed formula of the specification. Each layout operation is read at an index
  given by explicit coordinates: a broadcast of a scalar reads the scalar, a vector placed as the one row of a matrix
  reads the vector at the column, a one-row matrix repeated down the rows reads its row; a sum over the rows from an
  initial scalar is that scalar plus the sum over the row coordinate. The arithmetic is never evaluated: both sides
  spell the same operations on the same float words.
-/
import proofs.«144512_j30288109372144_1_alg».proof.Proof.RefTerm
import proofs.«144512_j30288109372144_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Hand

open Idealize.ShloMosaic Idealize.ShloMosaic.ValueIdx Cert.ReferenceIdeal Cert.ReferenceIdeal.Gen

/-! ## Layout operations at coordinates -/

/-- A scalar broadcast to a vector of 512 reads the scalar. -/
private theorem bcast_S_S512_apply {α : Type} (v : S_.Idx → α) (j : Fin 512) :
    broadcastInDim S512 ![] bcast_S_S512 v (ix1 j) = v ix0 :=
  broadcastInDim_apply _ _ v (ix1 j) ix0 fun a => a.elim0

/-- A scalar broadcast to a 1 × 512 matrix reads the scalar. -/
private theorem bcast_S_S1x512_apply {α : Type} (v : S_.Idx → α) (r : Fin 1) (j : Fin 512) :
    broadcastInDim S1x512 ![] bcast_S_S1x512 v (ix2 r j) = v ix0 :=
  broadcastInDim_apply _ _ v (ix2 r j) ix0 fun a => a.elim0

/-- A vector of 512 placed as the one row of a 1 × 512 matrix reads the vector at the column. -/
private theorem bcast_S512_S1x512_apply {α : Type} (v : S512.Idx → α) (r : Fin 1) (j : Fin 512) :
    broadcastInDim S1x512 ![1] bcast_S512_S1x512_1 v (ix2 r j) = v (ix1 j) :=
  broadcastInDim_apply _ _ v (ix2 r j) (ix1 j) fun a => match a with | ⟨0, _⟩ => rfl

/-- A 1 × 512 matrix repeated down 65536 rows reads its one row at the column. -/
private theorem bcast_S1x512_S65536x512_apply {α : Type} (v : S1x512.Idx → α) (b : Fin 65536) (j : Fin 512) :
    broadcastInDim S65536x512 ![0, 1] bcast_S1x512_S65536x512_0_1 v (ix2 b j) = v (ix2 (0 : Fin 1) j) :=
  broadcastInDim_apply _ _ v (ix2 b j) (ix2 (0 : Fin 1) j) fun a => match a with | ⟨0, _⟩ => rfl | ⟨1, _⟩ => rfl

/-- The rows of a 65536 × 512 matrix can be summed away, leaving the columns. -/
private theorem reduces_rows : S65536x512.Reduces [0] S512 := by decide

/-- The host's sum over the rows from an initial scalar, at column `j`: the scalar plus the sum over the rows. -/
private theorem colSum_apply (x : FVec Ideal S65536x512 .f32) (c : FVec Ideal S_ .f32) (j : Fin 512) :
    Host.reduceAdd (F := Ideal) x c reducesTo_S65536x512_S512_d0 h_S_ (ix1 j) = c ix0 + ∑ b : Fin 65536, x (ix2 b j) := by
  show Ideal.hostReduceAdd reducesTo_S65536x512_S512_d0 x (c (Shape.Idx.first h_S_)) (ix1 j) = _
  rw [Ideal.hostReduceAdd_single _ reduces_rows, eq_ix0 (Shape.Idx.first h_S_)]
  refine congrArg (c ix0 + ·) (Finset.sum_congr rfl fun b _ => congrArg x ?_)
  funext a
  match a with
  | ⟨0, _⟩ => exact Fin.ext rfl
  | ⟨1, _⟩ => exact Fin.ext rfl

/-- A vector's index set is its one coordinate's range. -/
private def idxEquiv1 : Fin 512 ≃ S512.Idx where
  toFun j := ix1 j
  invFun i := i 0
  left_inv _ := rfl
  right_inv i := (eq_ix1 i).symm

/-- The host's sum over a vector of 512 from an initial scalar: the scalar plus the sum over the entries. -/
private theorem total_apply (v : FVec Ideal S512 .f32) (c : FVec Ideal S_ .f32) (i : S_.Idx) :
    Host.reduceAdd (F := Ideal) v c reducesTo_S512_S_d0 h_S_ i = c ix0 + ∑ j : Fin 512, v (ix1 j) := by
  show Ideal.hostReduceAdd reducesTo_S512_S_d0 v (c (Shape.Idx.first h_S_)) i = _
  rw [Ideal.hostReduceAdd_total _ (fun b => b.elim0), eq_ix0 (Shape.Idx.first h_S_)]
  exact congrArg (c ix0 + ·) (Equiv.sum_comp idxEquiv1 v).symm

/-- The host's quotient at an index is the ideal division of the elements. -/
private theorem hostDivf_apply {s : Shape} (a b : FVec Ideal s .f32) (i : s.Idx) : Host.divf a b i = Ideal.div (a i) (b i) := rfl

/-- The host's square root at an index is the ideal square root of the element. -/
private theorem hostSqrt_apply {s : Shape} (a : FVec Ideal s .f32) (i : s.Idx) : Host.sqrt a i = Ideal.sqrt (a i) := rfl

/-! ## The stages at coordinates -/

/-- An entry centred by its column mean, as the variance stage spells the mean (the column sums placed as one row,
    divided by the count there, and repeated down the rows). -/
private theorem varCentred_apply (x : FVec Ideal S65536x512 .f32) (b : Fin 65536) (j : Fin 512) :
    subf x (broadcastInDim S65536x512 ![0, 1] bcast_S1x512_S65536x512_0_1
      (Host.divf (F := Ideal)
        (broadcastInDim S1x512 ![1] bcast_S512_S1x512_1
          (Host.reduceAdd x (constant S_ .f32 0x00000000#32) reducesTo_S65536x512_S512_d0 h_S_))
        (broadcastInDim S1x512 ![] bcast_S_S1x512 (constant S_ .f32 0x47800000#32)))) (ix2 b j)
      = Cert.Spec.mat x b j - Cert.Spec.rMean (Cert.Spec.mat x) j := by
  rw [subf_apply, bcast_S1x512_S65536x512_apply, hostDivf_apply, bcast_S512_S1x512_apply, bcast_S_S1x512_apply,
    colSum_apply]
  rfl

/-- The unbiased column variance stage at column `j` is the specification's guarded variance of the table. -/
theorem varTerm_apply (x : FVec Ideal S65536x512 .f32) (j : Fin 512) :
    varTerm (F := Ideal) x (constantI S_ 32 1#32) (ix1 j) = Cert.Spec.rVar (Cert.Spec.mat x) j := by
  unfold varTerm
  dsimp only
  rw [select_apply, bcast_S_S512_apply, hostDivf_apply, bcast_S_S512_apply, bcast_S_S512_apply, colSum_apply]
  rw [Finset.sum_congr rfl fun b _ => (mulf_apply _ _ (ix2 b j)).trans
    (congrArg₂ (· * ·) (varCentred_apply x b j) (varCentred_apply x b j))]
  rfl

/-- The normalisation stage at row `b`, column `j` is the specification's normalised entry of the table. -/
theorem normTerm_apply (x : FVec Ideal S65536x512 .f32) (b : Fin 65536) (j : Fin 512) :
    normTerm (F := Ideal) x (ix2 b j) = Cert.Spec.rNorm (Cert.Spec.mat x) b j := by
  unfold normTerm
  dsimp only
  rw [hostDivf_apply, subf_apply, bcast_S1x512_S65536x512_apply, bcast_S512_S1x512_apply, hostDivf_apply, colSum_apply,
    bcast_S_S512_apply, bcast_S1x512_S65536x512_apply, bcast_S512_S1x512_apply, addf_apply, hostSqrt_apply,
    varTerm_apply, bcast_S_S512_apply]
  rfl

/-- The diagonal stage at column `j`: the product of the two normalised tables summed over the rows, over the count. -/
private theorem diag_apply (e t : FVec Ideal S65536x512 .f32) (j : Fin 512) :
    Host.divf (F := Ideal)
      (Host.reduceAdd (mulf (normTerm e) (normTerm t)) (constant S_ .f32 0x00000000#32) reducesTo_S65536x512_S512_d0 h_S_)
      (broadcastInDim S512 ![] bcast_S_S512 (constant S_ .f32 0x47800000#32)) (ix1 j)
      = Cert.Spec.rDiag (Cert.Spec.mat e) (Cert.Spec.mat t) j := by
  rw [hostDivf_apply, colSum_apply, bcast_S_S512_apply]
  rw [Finset.sum_congr rfl fun b _ => (mulf_apply _ _ (ix2 b j)).trans
    (congrArg₂ (· * ·) (normTerm_apply e b j) (normTerm_apply t b j))]
  rfl

/-- At the ideal instance the reference's term is the specification's reference loss of the two arrays read as tables. -/
theorem refTerm_eq (e t : FVec Ideal S65536x512 .f32) :
    refTerm (F := Ideal) e t = fun _ => Cert.Spec.rLoss (Cert.Spec.mat e) (Cert.Spec.mat t) := by
  funext i
  unfold refTerm
  dsimp only
  rw [total_apply]
  rw [Finset.sum_congr rfl fun j _ => (mulf_apply _ _ (ix1 j)).trans
    (congrArg₂ (· * ·)
      ((subf_apply _ _ (ix1 j)).trans (congrArg₂ (· - ·) (bcast_S_S512_apply _ j) (diag_apply e t j)))
      ((subf_apply _ _ (ix1 j)).trans (congrArg₂ (· - ·) (bcast_S_S512_apply _ j) (diag_apply e t j))))]
  rfl

end Cert.ReferenceIdeal.Hand

end
-- ==== Proof.Algebra.lean ====
/-
  The kernel's loss equals the reference's loss, on tables of real numbers.

  Three facts carry it. (1) The kernel's tile-by-tile column sums meet each of the 2 · 16 · 2048 = 65536 rows once, so
  they are the plain sums over all rows. (2) With m_x = (Σ x)/B, expanding the product gives
  Σ (x − m_x)(y − m_y) = Σ xy − B·m_x·m_y; at y = x this is the sum-of-squares form of the variance, and the
  normalising factors (√var + ε), free of the row, come out of the row sum. (3) On real entries every operation
  stays real: the divisors 65536, 65535 and (√var + ε) are nonzero, the last because ε > 0, and the variance under the
  square root is a sum of squares over a positive count, so nonnegative.
-/
import proofs.«144512_j30288109372144_1_alg».proof.Proof.Spec
import Idealize.ShloMosaic.PureOps.Ideal.Laws
import Mathlib.Algebra.BigOperators.Fin
import Mathlib.Algebra.BigOperators.Intervals
import Mathlib.Tactic.Ring
import Mathlib.Tactic.FieldSimp
import Mathlib.Tactic.Positivity
import Mathlib.Tactic.NormNum
import Mathlib.Tactic.Linarith

noncomputable section

namespace Cert.Spec

open Idealize.ShloMosaic
open Finset

/-! ### The constants

Each float word the two formulas spell denotes a real number: `65536`, `1`, `0`, and a positive stabiliser. -/

/-- The word `+0.0` denotes `0`. -/
theorem cZero_eq : cZero = 0 := by
  simp [cZero, Ideal.ofBits, Ideal.ieee]

/-- The batch-size word denotes `65536 = 2¹⁶`. -/
theorem cB_eq : cB = ((65536 : ℝ) : EReal) := by
  simp [cB, Ideal.ofBits, Ideal.ieee, -EReal.coe_mul]; norm_num

/-- The unit word denotes `1`. -/
theorem cOne_eq : cOne = ((1 : ℝ) : EReal) := by
  simp [cOne, Ideal.ofBits, Ideal.ieee, -EReal.coe_mul]; norm_num

/-- The integer one, converted, is the real `1`. -/
theorem cDdof_eq : cDdof = ((1 : ℝ) : EReal) := by
  simp [cDdof]

/-- The stabiliser word is a positive normal float, `9007199 · 2⁻⁵³`; only its positivity is used. -/
theorem cEps_eq : ∃ ε : ℝ, 0 < ε ∧ cEps = (ε : EReal) :=
  ⟨9007199 * (2 ^ 53)⁻¹, by positivity, by simp [cEps, Ideal.ofBits, Ideal.ieee, -EReal.coe_mul]⟩

/-- The guard `B − 1 > 0` holds, since `65535 > 0`. -/
theorem guard_eq : Ideal.cmp .ogt (cB - cDdof) cZero = 1#1 := by
  rw [cB_eq, cDdof_eq, cZero_eq, ← EReal.coe_sub]
  have h : (0 : EReal) < ((65536 - 1 : ℝ) : EReal) := by
    rw [← EReal.coe_zero, EReal.coe_lt_coe_iff]; norm_num
  simp only [Ideal.cmp, h, decide_true]
  rfl

/-! ### Sums -/

/-- The coercion of a finite real sum is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `a` blocks of `b` consecutive numbers is the sum over the first `a · b` numbers. -/
theorem sum_range_blocks {M : Type*} [AddCommMonoid M] (g : ℕ → M) (a b : ℕ) :
    ∑ i ∈ range a, ∑ j ∈ range b, g (i * b + j) = ∑ n ∈ range (a * b), g n := by
  induction a with
  | zero => simp
  | succ a ih => rw [Finset.sum_range_succ, ih, Nat.succ_mul, Finset.sum_range_add]

/-- Two cores, sixteen tiles each, 2048 rows a tile: every one of the `2 · 16 · 2048 = 65536` rows is met once,
    in order, so the tile-by-tile sum is the sum over all rows. -/
theorem sum_tiles {M : Type*} [AddCommMonoid M] (f : Fin 65536 → M) :
    ∑ p : Fin 2, ∑ jj ∈ range 16, ∑ r : Fin 2048, f (row ((p.val * 16 + jj) * 2048 + r.val)) = ∑ b : Fin 65536, f b := by
  have h1 : ∀ m : ℕ, ∑ r : Fin 2048, f (row (m * 2048 + r.val)) = ∑ r ∈ range 2048, f (row (m * 2048 + r)) :=
    fun m => Fin.sum_univ_eq_sum_range (fun r => f (row (m * 2048 + r))) 2048
  have h2 : ∑ p : Fin 2, ∑ jj ∈ range 16, ∑ r ∈ range 2048, f (row ((p.val * 16 + jj) * 2048 + r))
      = ∑ p ∈ range 2, ∑ jj ∈ range 16, ∑ r ∈ range 2048, f (row ((p * 16 + jj) * 2048 + r)) :=
    Fin.sum_univ_eq_sum_range (fun p => ∑ jj ∈ range 16, ∑ r ∈ range 2048, f (row ((p * 16 + jj) * 2048 + r))) 2
  have h3 : ∑ b : Fin 65536, f b = ∑ n ∈ range 65536, f (row n) := by
    rw [← Fin.sum_univ_eq_sum_range (fun n => f (row n)) 65536]
    refine Finset.sum_congr rfl fun b _ => ?_
    congr 1
    exact Fin.ext (Nat.mod_eq_of_lt b.isLt).symm
  simp only [h1]
  rw [h2, h3, sum_range_blocks (fun m => ∑ r ∈ range 2048, f (row (m * 2048 + r))) 2 16,
    sum_range_blocks (fun n => f (row n)) (2 * 16) 2048]

/-- The kernel's column sum of statistic `k` is the plain sum over all rows. -/
theorem kSum_eq (E T : Mat) (k : Fin 5) (j : Fin 512) :
    kSum E T k j = ∑ b : Fin 65536, stat k (E b j) (T b j) := by
  unfold kSum coreSum tileSum
  rw [cZero_eq, zero_add]
  exact sum_tiles (fun b => stat k (E b j) (T b j))

/-! ### The identity over the reals

For real columns `x`, `y` indexed by a finite type with `B` elements, write `m_x = (Σ x)/B`. Expanding the product and
using `Σ x = B·m_x` gives `Σ (x − m_x)(y − m_y) = Σ xy − B·m_x·m_y`; with `y = x` this is the sum-of-squares form of the
variance. The normalising factors do not depend on the row, so they come out of the row sum. -/

section RealIdentity

variable {ι : Type*} [Fintype ι]

/-- The column mean. -/
def meanR (x : ι → ℝ) (B : ℝ) : ℝ := (∑ i, x i) / B

/-- The variance by the sum-of-squares identity, as the kernel forms it. -/
def kVarR (x : ι → ℝ) (B : ℝ) : ℝ := ((∑ i, x i * x i) - B * meanR x B * meanR x B) / (B - 1)

/-- The variance of the centred column, as the reference forms it. -/
def rVarR (x : ι → ℝ) (B : ℝ) : ℝ := (∑ i, (x i - meanR x B) * (x i - meanR x B)) / (B - 1)

/-- The kernel's normalised diagonal entry. -/
def kDiagR (x y : ι → ℝ) (B ε : ℝ) : ℝ :=
  ((∑ i, x i * y i) - B * meanR x B * meanR y B) / B / ((√(kVarR x B) + ε) * (√(kVarR y B) + ε))

/-- The reference's diagonal entry: the mean of the products of the normalised columns. -/
def rDiagR (x y : ι → ℝ) (B ε : ℝ) : ℝ :=
  (∑ i, ((x i - meanR x B) / (√(rVarR x B) + ε)) * ((y i - meanR y B) / (√(rVarR y B) + ε))) / B

/-- `Σ (x − m_x)(y − m_y) = Σ xy − B·m_x·m_y`. -/
theorem sum_centred_mul (x y : ι → ℝ) (B : ℝ) (hB : (Fintype.card ι : ℝ) = B) (hB0 : B ≠ 0) :
    ∑ i, (x i - meanR x B) * (y i - meanR y B) = (∑ i, x i * y i) - B * meanR x B * meanR y B := by
  have hx : ∑ i, x i = B * meanR x B := by unfold meanR; field_simp
  have hy : ∑ i, y i = B * meanR y B := by unfold meanR; field_simp
  generalize meanR x B = mx at *
  generalize meanR y B = my at *
  have h : ∀ i, (x i - mx) * (y i - my) = x i * y i - mx * y i - my * x i + mx * my := fun i => by ring
  simp_rw [h, Finset.sum_add_distrib, Finset.sum_sub_distrib, ← Finset.mul_sum, Finset.sum_const,
    Finset.card_univ, nsmul_eq_mul, hB, hx, hy]
  ring

/-- The two forms of the variance agree. -/
theorem kVarR_eq_rVarR (x : ι → ℝ) (B : ℝ) (hB : (Fintype.card ι : ℝ) = B) (hB0 : B ≠ 0) :
    kVarR x B = rVarR x B := by
  unfold kVarR rVarR
  rw [sum_centred_mul x x B hB hB0]

/-- A sum of squares over a positive count is nonnegative. -/
theorem rVarR_nonneg (x : ι → ℝ) (B : ℝ) (hB1 : 1 < B) : 0 ≤ rVarR x B :=
  div_nonneg (Finset.sum_nonneg fun i _ => mul_self_nonneg _) (by linarith)

/-- The kernel's diagonal entry is the reference's. -/
theorem kDiagR_eq_rDiagR (x y : ι → ℝ) (B ε : ℝ) (hB : (Fintype.card ι : ℝ) = B) (hB0 : B ≠ 0) :
    kDiagR x y B ε = rDiagR x y B ε := by
  unfold kDiagR rDiagR
  rw [kVarR_eq_rVarR x B hB hB0, kVarR_eq_rVarR y B hB hB0]
  simp_rw [div_mul_div_comm, ← Finset.sum_div]
  rw [sum_centred_mul x y B hB hB0, div_right_comm]

end RealIdentity

/-! ### From the extended reals to the reals

On real entries every operation of the two formulas stays real: sums, products and differences of reals are real,
division by a nonzero real is real, and the square root of a nonnegative real is real. -/

/-- Division of a real by a nonzero real is the real quotient. -/
theorem div_coe_coe (x y : ℝ) (hy : y ≠ 0) : Ideal.div (x : EReal) (y : EReal) = ((x / y : ℝ) : EReal) := by
  rw [Ideal.div_coe hy, ← EReal.coe_mul, mul_one_div]

/-- The square root of a nonnegative real is the real square root. -/
theorem sqrt_coe_of_nonneg (r : ℝ) (hr : 0 ≤ r) : Ideal.sqrt (r : EReal) = ((√r : ℝ) : EReal) := by
  rw [Ideal.sqrt_coe, if_neg (not_lt.mpr hr)]

/-- The five statistics' summands over the reals. -/
def statR (k : Fin 5) (a b : ℝ) : ℝ :=
  if k.val = 0 then a else if k.val = 1 then a * a else if k.val = 2 then b else if k.val = 3 then b * b else a * b

/-- Each summand of real arguments is the real summand. -/
theorem stat_coe (k : Fin 5) (a b : ℝ) : stat k (a : EReal) (b : EReal) = ((statR k a b : ℝ) : EReal) := by
  unfold stat statR
  split_ifs <;> simp only [EReal.coe_mul]

section Columns

variable (e t : Fin 65536 → Fin 512 → ℝ)

/-- The kernel's column sums on real tables. -/
theorem kSum_coe (k : Fin 5) (j : Fin 512) :
    kSum (fun b j => (e b j : EReal)) (fun b j => (t b j : EReal)) k j
      = ((∑ b, statR k (e b j) (t b j) : ℝ) : EReal) := by
  rw [kSum_eq, coe_finset_sum]
  exact Finset.sum_congr rfl fun b _ => stat_coe k _ _

/-- There are `65536` rows. -/
theorem card_rows : (Fintype.card (Fin 65536) : ℝ) = 65536 := by
  rw [Fintype.card_fin]; norm_num

/-- The kernel's diagonal entry on real tables is real, and is the real formula. -/
theorem kDiag_coe (ε : ℝ) (hε : 0 < ε) (hc : cEps = (ε : EReal)) (j : Fin 512) :
    kDiag (fun b j => (e b j : EReal)) (fun b j => (t b j : EReal)) j
      = ((kDiagR (fun b => e b j) (fun b => t b j) 65536 ε : ℝ) : EReal) := by
  have h6 : (65536 : ℝ) ≠ 0 := by norm_num
  have h5 : (65536 - 1 : ℝ) ≠ 0 := by norm_num
  have hx := rVarR_nonneg (fun b => e b j) 65536 (by norm_num)
  have hy := rVarR_nonneg (fun b => t b j) 65536 (by norm_num)
  rw [← kVarR_eq_rVarR _ _ card_rows h6] at hx hy
  have hsx : √(kVarR (fun b => e b j) 65536) + ε ≠ 0 := (add_pos_of_nonneg_of_pos (Real.sqrt_nonneg _) hε).ne'
  have hsy : √(kVarR (fun b => t b j) 65536) + ε ≠ 0 := (add_pos_of_nonneg_of_pos (Real.sqrt_nonneg _) hε).ne'
  unfold kDiag
  simp only [kSum_coe, cB_eq, cOne_eq, hc]
  have s0 : ∀ a b : ℝ, statR 0 a b = a := fun _ _ => rfl
  have s1 : ∀ a b : ℝ, statR 1 a b = a * a := fun _ _ => rfl
  have s2 : ∀ a b : ℝ, statR 2 a b = b := fun _ _ => rfl
  have s3 : ∀ a b : ℝ, statR 3 a b = b * b := fun _ _ => rfl
  have s4 : ∀ a b : ℝ, statR 4 a b = a * b := fun _ _ => rfl
  simp only [s0, s1, s2, s3, s4]
  rw [div_coe_coe _ _ h6, div_coe_coe _ _ h6, ← EReal.coe_sub]
  simp only [← EReal.coe_mul, ← EReal.coe_sub]
  rw [div_coe_coe _ _ h6, div_coe_coe _ _ h5, div_coe_coe _ _ h5]
  change Ideal.div
      (↑(((∑ x, e x j * t x j) - 65536 * meanR (fun b => e b j) 65536 * meanR (fun b => t b j) 65536) / 65536))
      ((Ideal.sqrt ↑(kVarR (fun b => e b j) 65536) + ↑ε) * (Ideal.sqrt ↑(kVarR (fun b => t b j) 65536) + ↑ε)) = _
  rw [sqrt_coe_of_nonneg _ hx, sqrt_coe_of_nonneg _ hy, ← EReal.coe_add, ← EReal.coe_add, ← EReal.coe_mul,
    div_coe_coe _ _ (mul_ne_zero hsx hsy)]
  rfl

/-- The reference's column mean on a real table. -/
theorem rMean_coe (x : Fin 65536 → Fin 512 → ℝ) (j : Fin 512) :
    rMean (fun b j => (x b j : EReal)) j = ((meanR (fun b => x b j) 65536 : ℝ) : EReal) := by
  unfold rMean meanR
  rw [cZero_eq, zero_add, cB_eq, ← coe_finset_sum, div_coe_coe _ _ (by norm_num)]

/-- The reference's column variance on a real table: the guard holds, so the quotient is chosen. -/
theorem rVar_coe (x : Fin 65536 → Fin 512 → ℝ) (j : Fin 512) :
    rVar (fun b j => (x b j : EReal)) j = ((rVarR (fun b => x b j) 65536 : ℝ) : EReal) := by
  unfold rVar rVarR
  rw [guard_eq, Scalar.select, if_pos (show (1#1 : BitVec 1) = 1 from rfl), cZero_eq, zero_add, cB_eq, cDdof_eq]
  simp only [rMean_coe, ← EReal.coe_sub, ← EReal.coe_mul]
  rw [← coe_finset_sum, div_coe_coe _ _ (by norm_num)]

/-- A normalised entry of a real table. -/
theorem rNorm_coe (x : Fin 65536 → Fin 512 → ℝ) (ε : ℝ) (hε : 0 < ε) (hc : cEps = (ε : EReal)) (b : Fin 65536) (j : Fin 512) :
    rNorm (fun b j => (x b j : EReal)) b j
      = (((x b j - meanR (fun b => x b j) 65536) / (√(rVarR (fun b => x b j) 65536) + ε) : ℝ) : EReal) := by
  have hs : √(rVarR (fun b => x b j) 65536) + ε ≠ 0 := (add_pos_of_nonneg_of_pos (Real.sqrt_nonneg _) hε).ne'
  unfold rNorm
  rw [rMean_coe, rVar_coe, hc, sqrt_coe_of_nonneg _ (rVarR_nonneg _ 65536 (by norm_num)), ← EReal.coe_sub,
    ← EReal.coe_add, div_coe_coe _ _ hs]

/-- The reference's diagonal entry on real tables is real, and is the real formula. -/
theorem rDiag_coe (ε : ℝ) (hε : 0 < ε) (hc : cEps = (ε : EReal)) (j : Fin 512) :
    rDiag (fun b j => (e b j : EReal)) (fun b j => (t b j : EReal)) j
      = ((rDiagR (fun b => e b j) (fun b => t b j) 65536 ε : ℝ) : EReal) := by
  unfold rDiag rDiagR
  simp only [rNorm_coe _ ε hε hc, ← EReal.coe_mul]
  rw [cZero_eq, zero_add, cB_eq, ← coe_finset_sum, div_coe_coe _ _ (by norm_num)]

end Columns

/-! ### The theorem -/

/-- On tables whose every entry is a real number the kernel's loss is the reference's. -/
theorem kLoss_eq_rLoss (E T : Mat) (hE : ∀ b j, ∃ r : ℝ, E b j = (r : EReal)) (hT : ∀ b j, ∃ r : ℝ, T b j = (r : EReal)) :
    kLoss E T = rLoss E T := by
  choose e he using hE
  choose t ht using hT
  obtain rfl : E = fun b j => (e b j : EReal) := funext fun b => funext fun j => he b j
  obtain rfl : T = fun b j => (t b j : EReal) := funext fun b => funext fun j => ht b j
  obtain ⟨ε, hε, hc⟩ := cEps_eq
  unfold kLoss rLoss
  refine congrArg (cZero + ·) (Finset.sum_congr rfl fun j _ => ?_)
  rw [kDiag_coe e t ε hε hc j, rDiag_coe e t ε hε hc j, kDiagR_eq_rDiagR _ _ _ _ card_rows (by norm_num)]

end Cert.Spec

end
-- ==== Proof.Finite.lean ====
import proofs.«144512_j30288109372144_1_alg».proof.Pre_finite_inputs
import Idealize.ShloMosaic.PureOps.Ideal
import Idealize.ShloMosaic.Lib.ReduceAll
import Idealize.ShloMosaic.Lib.ValueIdx
import Mathlib.Data.EReal.Basic

/-!
  From the printed finiteness predicate to real entries.

  The predicate compares, entry by entry, the absolute value of each input with plus infinity, takes the
  conjunction over all entries of each input, and conjoins the two results. At the ideal instance a float
  is an extended real, the absolute value of `a` is `max a (-a)`, and the pattern `0x7F800000` denotes `⊤`.
  So the predicate being 1 says `max (x i) (-(x i)) < ⊤` at every index `i` (and the same for `y`), which rules out
  both `x i = ⊤` and `x i = ⊥` (where `-(x i) = ⊤`), leaving a real number.
-/

noncomputable section

namespace Cert.Finite

open Idealize.ShloMosaic

/-- The rank-zero shape has exactly one index: two indices are functions out of the empty type. -/
instance subsingleton_scalar_idx : Subsingleton Cert.Pre_finite_inputs.S_.Idx :=
  ⟨fun _ _ => funext fun d => d.elim0⟩

/-- The single-precision pattern with all exponent bits set, sign and fraction zero, denotes plus infinity. -/
theorem ofBits_inf : Ideal.ofBits .f32 0x7F800000#32 = (⊤ : EReal) := by
  simp [Ideal.ofBits, Ideal.ieee]

/-- An extended real whose absolute value `max a (-a)` compares strictly below `⊤` is a real number:
    `a = ⊤` makes the maximum `⊤`, and `a = ⊥` makes `-a = ⊤` and again the maximum `⊤`. -/
theorem real_of_abs_lt_top (a : EReal) (h : Ideal.cmp .olt (max a (-a)) (⊤ : EReal) = 1#1) :
    ∃ r : ℝ, a = (r : EReal) := by
  have hlt : max a (-a) < (⊤ : EReal) := by
    by_contra hn
    simp [Ideal.cmp, hn] at h
  induction a using EReal.rec with
  | bot => simp at hlt
  | coe r => exact ⟨r, rfl⟩
  | top => simp at hlt

/-- One input: if the conjunction over all entries of `|x i| < +∞` is 1, every entry of `x` is real. -/
theorem real_of_all [Cert.Pre_finite_inputs.Facts] (x : FVec Ideal Cert.Pre_finite_inputs.S65536x512 .f32)
    (h : Host.reduce IntOp.andi
        (cmpf .olt (Host.absf x)
          (broadcastInDim Cert.Pre_finite_inputs.S65536x512 ![] Cert.Pre_finite_inputs.Facts.bcast_S_S65536x512
            (constant (F := Ideal) Cert.Pre_finite_inputs.S_ .f32 0x7F800000#32)))
        (constantI Cert.Pre_finite_inputs.S_ 1 1#1)
        Cert.Pre_finite_inputs.Facts.reducesTo_S65536x512_S_d0_1 Cert.Pre_finite_inputs.Facts.h_S_ ValueIdx.ix0 = 1#1)
    (i : Cert.Pre_finite_inputs.S65536x512.Idx) : ∃ r : ℝ, x i = (r : EReal) := by
  have e := Host.reduce_andi_all _ _ _ _ _ h i
  refine real_of_abs_lt_top (x i) ?_
  rw [← ofBits_inf]
  exact e

/-- If the printed finiteness predicate is all ones on two arrays at the ideal instance, every entry of each is a real number. -/
theorem real_of_fn [Cert.Pre_finite_inputs.Facts] (x y : FVec Ideal Cert.Pre_finite_inputs.S65536x512 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ValueIdx.ix0
  dsimp only [Cert.Pre_finite_inputs.fn] at h0
  obtain ⟨hx, hy⟩ := IntOp.andi_eq_one.1 h0
  exact ⟨real_of_all x hx, real_of_all y hy⟩

end Cert.Finite

end
-- ==== Proof.lean ====
/-
  The claim: a diagonal-only Barlow-Twins loss over two 65536 × 512 float tables, computed by a kernel that gathers five
  column sums (Σe, Σe², Στ, Στ², Σeτ) tile by tile on two cores and finishes on the host with
      mean = S/B,  var = (S₂ − B·mean²)/(B − 1),  cov = (S_eτ − B·mean_e·mean_τ)/B,
      diag = cov / ((√var_e + ε)(√var_τ + ε)),  loss = Σ (1 − diag)²,
  against a reference that centres each column, divides by (unbiased standard deviation + ε), multiplies the two
  normalised tables, sums the rows over B, and takes the same loss.

  At the ideal instance both are functions of the tables over the extended reals. The kernel's is read off its frame run
  (the region's result array is the two cores' sums; the host operations after it are one composed term), the reference's
  off its straight-line run; each is then spelled with plain row and column indices (`Cert.Spec.kLoss`, `Cert.Spec.rLoss`).
  On tables of real numbers — which the precondition gives — the two agree: the tiles' sums regroup into the column sums,
  Σ(x − x̄)² = Σx² − B·x̄² and Σ(x − x̄)(y − ȳ) = Σxy − B·x̄·ȳ, the variances are nonnegative so the square roots are real,
  the divisors (√var + ε) are positive, and the constant divisors come out of the sums. The ideal pass rewrote nothing,
  so the preservation conjunct is trivial; the frames are the generated frame runs and the reference's run.
-/
import proofs.«144512_j30288109372144_1_alg».proof.Defs
import proofs.«144512_j30288109372144_1_alg».proof.Proof.Gen.Kernel
import proofs.«144512_j30288109372144_1_alg».proof.Proof.Gen.Kernel.Frame
import proofs.«144512_j30288109372144_1_alg».proof.Proof.Gen.KernelIdeal
import proofs.«144512_j30288109372144_1_alg».proof.Proof.Gen.KernelIdeal.Frame
import proofs.«144512_j30288109372144_1_alg».proof.Proof.Gen.ReferenceIdeal
import proofs.«144512_j30288109372144_1_alg».proof.Proof.Gen.Pre_finite_inputs
import proofs.«144512_j30288109372144_1_alg».proof.Proof.KRun
import proofs.«144512_j30288109372144_1_alg».proof.Proof.KTailValue
import proofs.«144512_j30288109372144_1_alg».proof.Proof.RefRun
import proofs.«144512_j30288109372144_1_alg».proof.Proof.RefValue
import proofs.«144512_j30288109372144_1_alg».proof.Proof.Algebra
import proofs.«144512_j30288109372144_1_alg».proof.Proof.Finite
import Idealize.ShloMosaic.Adequacy
import Idealize.ShloMosaic.Init

noncomputable section

namespace Cert.Proof

open Idealize.ShloMosaic Idealize.SL.Sem Idealize.ShloMosaic.ValueIdx

/-- The word-level kernel runs and keeps its arguments: its generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The ideal pass rewrote no operation. -/
theorem preserves : Cert.preserves_Kernel_KernelIdeal := trivial

/-- From memories that agree on the two tables, both programs end at the kernel's loss of them: the kernel by its run and
    its tail's reading, the reference by its run, its term's reading, and the equality of the two losses on real tables. -/
theorem algebraic : Cert.algebraic_KernelIdeal_ReferenceIdeal := by
  intro m ρ m' ρ' hpre hagree
  refine ⟨fun c => fun _ => Cert.Spec.kLoss
      (Cert.Spec.mat (m ((c.tc : Thread Cert.KernelIdeal.nD Cert.KernelIdeal.τ).loc Cert.KernelIdeal.main_arg0)))
      (Cert.Spec.mat (m ((c.tc : Thread Cert.KernelIdeal.nD Cert.KernelIdeal.τ).loc Cert.KernelIdeal.main_arg1))), ?_, ?_⟩
  · exact (θ_run Cert.KernelIdeal.defs _ _).mono
      (fun _ h c => ⟨(h c).1.trans (Cert.KernelIdeal.Hand.tailTerm_eq _ _), (h c).2⟩)
      (Cert.KernelIdeal.Hand.run m ρ)
  · refine (θ_run Cert.ReferenceIdeal.defs _ _).mono (fun _ h c => ⟨?_, (h c).2⟩)
      (Cert.ReferenceIdeal.Hand.run (F := Ideal) m' ρ')
    obtain ⟨hE, hT⟩ := Cert.Finite.real_of_fn _ _ (hpre c)
    rw [(h c).1, Cert.ReferenceIdeal.Hand.refTerm_eq, (hagree c).1, (hagree c).2]
    exact funext fun _ => (Cert.Spec.kLoss_eq_rLoss _ _ (fun b j => hE (ix2 b j)) (fun b j => hT (ix2 b j))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
